-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S2048x512 : Shape := ⟨2, ![2048, 512]⟩
abbrev S16384 : Shape := ⟨1, ![16384]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x512 .f32) (main_arg1 : FVec F S2048x512 .f32) (main_arg2 : IVec S16384 32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 32 := constantI S_ 32 2048#32
  let main_v11 : IVec S16384 32 := broadcastInDim S16384 ![] bcast_S_S16384 main_c_3
  let main_v12 : IVec S16384 1 := cmpi .slt main_arg2 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x512 : Shape := ⟨2, ![16384, 512]⟩
abbrev S2048x512 : Shape := ⟨2, ![2048, 512]⟩
abbrev S16384 : Shape := ⟨1, ![16384]⟩
abbrev S16384x1 : Shape := ⟨2, ![16384, 1]⟩
abbrev S_ : Shape := ⟨0, ![]⟩
abbrev S2048 : Shape := ⟨1, ![2048]⟩
abbrev S1x2048 : Shape := ⟨2, ![1, 2048]⟩
abbrev S512x2048 : Shape := ⟨2, ![512, 2048]⟩
abbrev S32x1x512 : Shape := ⟨3, ![32, 1, 512]⟩
abbrev S512x512 : Shape := ⟨2, ![512, 512]⟩
abbrev S512x1 : Shape := ⟨2, ![512, 1]⟩
abbrev S1x1x512 : Shape := ⟨3, ![1, 1, 512]⟩
abbrev S512 : Shape := ⟨1, ![512]⟩
abbrev S1x512 : Shape := ⟨2, ![1, 512]⟩

abbrev nBuf : Space → Nat
  | .hbm => 15
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S2048x512, .f32⟩
  | .hbm, ⟨2, _⟩ => ⟨S16384, .i32⟩
  | .hbm, ⟨3, _⟩ => ⟨S16384x1, .i32⟩
  | .hbm, ⟨4, _⟩ => ⟨S2048x512, .f32⟩
  | .hbm, ⟨5, _⟩ => ⟨S_, .f32⟩
  | .hbm, ⟨6, _⟩ => ⟨S2048, .f32⟩
  | .hbm, ⟨7, _⟩ => ⟨S1x2048, .f32⟩
  | .hbm, ⟨8, _⟩ => ⟨S2048x512, .bf16⟩
  | .hbm, ⟨9, _⟩ => ⟨S512x2048, .bf16⟩
  | .hbm, ⟨10, _⟩ => ⟨S32x1x512, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x2048, .bf16⟩
  | .local _ .vmem, ⟨3, _⟩ => ⟨S1x2048, .f32⟩
  | .local _ .vmem, ⟨4, _⟩ => ⟨S512x1, .i32⟩
  | .local _ .vmem, ⟨5, _⟩ => ⟨S512x1, .i32⟩
  | .local _ .vmem, ⟨6, _⟩ => ⟨S1x1x512, .f32⟩
  | .local _ .vmem, ⟨7, _⟩ => ⟨S1x1x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16384_S16384x1 : S16384.ShapeCasts S16384x1
  reducesTo_S2048x512_S2048_d1 : S2048x512.ReducesTo [1] S2048
  h_S_ : 0 < S_.numel
  shapeCasts_S2048_S1x2048 : S2048.ShapeCasts S1x2048
  bitsLt_bf16_f32 : FTy.bits .bf16 < FTy.bits .f32
  transposes_S2048x512_S512x2048_1_0 : S2048x512.Transposes [1, 0] S512x2048
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  broadcasts_S512x1_S512x512 : S512x1.Broadcasts S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x2048_d1_w32 : S512x2048.Iotas .tc 32 [1]
  reduces_S512x2048_S512 : S512x2048.Reduces [1] S512
  transposes_S512x1_p1_0_S1x512 : S512x1.Transposes [1, 0] S1x512
  shapeCasts_S1x512_S1x1x512 : S1x512.ShapeCasts S1x1x512
  inb_S1x1x512_S1x1x512_0_0_0 : ∀ a, (![0, 0, 0] : Fin 3 → Nat) a + S1x1x512.size a ≤ S1x1x512.size a
  h_S1x1x512 : 0 < S1x1x512.numel
  reducesTo_S32x1x512_S_d0_1_2 : S32x1x512.ReducesTo [0, 1, 2] S_
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S16384x1.size a
  hwx0_3 : ∀ i : grid0.Coords, EltTy.bits .i32 = 32 ∨ (Rect.block (s := S16384x1) S512x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S32x1x512.size a
  hwx0_4 : ∀ i : grid0.Coords, EltTy.bits .f32 = 32 ∨ (Rect.block (s := S32x1x512) S1x1x512.size (cc0_transform_4 i) (hinb0_4 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x512 : Shape := ⟨2, ![16384, 512]⟩
abbrev S2048x512 : Shape := ⟨2, ![2048, 512]⟩
abbrev S16384 : Shape := ⟨1, ![16384]⟩
abbrev S_ : Shape := ⟨0, ![]⟩
abbrev S16384x1 : Shape := ⟨2, ![16384, 1]⟩
abbrev S2048 : Shape := ⟨1, ![2048]⟩
abbrev S1x2048 : Shape := ⟨2, ![1, 2048]⟩
abbrev S16384x2048 : Shape := ⟨2, ![16384, 2048]⟩
abbrev S512x2048 : Shape := ⟨2, ![512, 2048]⟩
abbrev S16384x2 : Shape := ⟨2, ![16384, 2]⟩

abbrev nBuf : Space → Nat
  | .hbm => 73
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S2048x512, .f32⟩
  | .hbm, ⟨2, _⟩ => ⟨S16384, .i32⟩
  | .hbm, ⟨3, _⟩ => ⟨S16384x512, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S2048x512, .f32⟩
  | .hbm, ⟨18, _⟩ => ⟨S_, .f32⟩
  | .hbm, ⟨19, _⟩ => ⟨S2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S512x2048, .f32⟩
  | .hbm, ⟨25, _⟩ => ⟨S16384x2048, .f32⟩
  | .hbm, ⟨26, _⟩ => ⟨S_, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384, .i32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S_, .i32⟩
  | .hbm, ⟨43, _⟩ => ⟨S16384, .i32⟩
  | .hbm, ⟨44, _⟩ => ⟨S16384, .i1⟩
  | .hbm, ⟨45, _⟩ => ⟨S_, .i32⟩
  | .hbm, ⟨46, _⟩ => ⟨S16384, .i32⟩
  | .hbm, ⟨47, _⟩ => ⟨S16384, .i32⟩
  | .hbm, ⟨48, _⟩ => ⟨S16384, .i32⟩
  | .hbm, ⟨49, _⟩ => ⟨S16384x1, .i32⟩
  | .hbm, ⟨50, _⟩ => ⟨S16384x1, .i32⟩
  | .hbm, ⟨51, _⟩ => ⟨S16384x2, .i32⟩
  | .hbm, ⟨52, _⟩ => ⟨S16384, .f32⟩
  | .hbm, ⟨53, _⟩ => ⟨S2048, .i32⟩
  | .hbm, ⟨54, _⟩ => ⟨S1x2048, .i32⟩
  | .hbm, ⟨55, _⟩ => ⟨S16384x1, .i32⟩
  | .hbm, ⟨56, _⟩ => ⟨S16384x2048, .i32⟩
  | .hbm, ⟨57, _⟩ => ⟨S16384x2048, .i32⟩
  | .hbm, ⟨58, _⟩ => ⟨S16384x2048, .i1⟩
  | .hbm, ⟨59, _⟩ => ⟨S_, .f32⟩
  | .hbm, ⟨60, _⟩ => ⟨S_, .f32⟩
  | .hbm, ⟨61, _⟩ => ⟨S16384x2048, .f32⟩
  | .hbm, ⟨62, _⟩ => ⟨S16384x2048, .f32⟩
  | .hbm, ⟨63, _⟩ => ⟨S_, .f32⟩
  | .hbm, ⟨64, _⟩ => ⟨S16384, .f32⟩
  | .hbm, ⟨65, _⟩ => ⟨S_, .f32⟩
  | .hbm, ⟨66, _⟩ => ⟨S16384, .f32⟩
  | .hbm, ⟨67, _⟩ => ⟨S16384, .f32⟩
  | .hbm, ⟨68, _⟩ => ⟨S16384, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_call1_v0 : Ref sig .tc := ⟨.hbm, 60, rfl⟩
abbrev main_call1_v1 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  reducesTo_S2048x512_S2048_d1 : S2048x512.ReducesTo [1] S2048
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  transposes_S2048x512_S512x2048_1_0 : S2048x512.Transposes [1, 0] S512x2048
  bcast_S_S16384x2048 : S_.BroadcastsInDim S16384x2048 (![] : Fin 0 → Fin S16384x2048.rank)
  bcast_S_S16384 : S_.BroadcastsInDim S16384 (![] : Fin 0 → Fin S16384.rank)
  concatenates_S16384x1_S16384x1_S16384x2_d1 : Shape.Concatenates [S16384x1, S16384x1] S16384x2 1
  reducesTo_S16384x2048_S16384_d1 : S16384x2048.ReducesTo [1] S16384
  reducesTo_S16384_S_d0 : S16384.ReducesTo [0] S_
  dot_S16384x512_S512x2048_S16384x2048_1_0_0_1_n_n_wf : DotDims.WF S16384x512 S512x2048 S16384x2048 [1] [0] [0] [1] [] []
  gather_S16384x2048_S16384x2_S16384_n_01_n_n_01_1_11_wf : GatherDims.WF S16384x2048 S16384x2 S16384 [] [0, 1] [] [0, 1] [] 1 ![1, 1]

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf
def gather_S16384x2048_S16384x2_S16384_n_01_n_n_01_1_11 : GatherDims S16384x2048 S16384x2 S16384 where
  offsetDims := []
  collapsedSliceDims := [0, 1]
  operandBatchingDims := []
  startIndicesBatchingDims := []
  startIndexMap := [0, 1]
  indexVectorDim := 1
  sliceSizes := ![1, 1]
  wf := gather_S16384x2048_S16384x2_S16384_n_01_n_n_01_1_11_wf

class Facts : Prop extends Facts₀ where

variable [Facts]
-- ==== Proof.Spec.lean ====
/-
  The two programs' common vocabulary, over the extended reals, with no program imported.

  Both programs compute a margin loss per row `x` of the 16384 × 512 input against the 2048 class rows `E c`
  and a label `L`, and return the mean over the rows:
      1 + √max(D(L), 0) − min over the classes c ≠ L of √max(D(c), 0),
  where D(c) is the squared distance `‖u‖² + ‖E c‖² − 2 · (u · E c)` of the row's unit vector
  `u = x / max(‖x‖, ε)` to class row `c`.

  They differ in how they spell it. The reference divides the row by its norm and takes the square root of
  every squared distance before it gathers the label's and minimises over the others (`refRow`). The kernel
  multiplies by the reciprocal of the norm, takes `‖u‖²` as `‖x‖² · inv · inv`, selects the label's squared
  distance as a masked sum, minimises the SQUARED distances and takes the two square roots last (`kerRow`).
  The float literals stay as the patterns both programs print; the same pattern on both sides is never evaluated.
-/
import Idealize.ShloMosaic.PureOps.Ideal.Laws

noncomputable section

namespace Cert.DistLoss

open Idealize.ShloMosaic

/-- The sum of squares of a finite family. -/
def sumSq {n : Nat} (x : Fin n → EReal) : EReal := ∑ d, x d * x d

/-- A row's norm, kept away from zero by the literal ε both programs carry. -/
def rowNorm (x : Fin 512 → EReal) : EReal :=
  max (Ideal.sqrt (sumSq x)) (Ideal.ofBits .f32 0x2B8CBCCC#32)

/-- The reference's unit vector: the row divided by its norm. -/
def refUnit (x : Fin 512 → EReal) (d : Fin 512) : EReal := Ideal.div (x d) (rowNorm x)

/-- The reference's squared distance of the row's unit vector to class row `c`. -/
def refSq (x : Fin 512 → EReal) (E : Fin 2048 → Fin 512 → EReal) (c : Fin 2048) : EReal :=
  (sumSq (refUnit x) + sumSq (E c)) - Ideal.ofBits .f32 0x40000000#32 * ∑ d, refUnit x d * E c d

/-- The kernel's reciprocal of the norm. -/
def kerInv (x : Fin 512 → EReal) : EReal := Ideal.div (Ideal.ofBits .f32 0x3F800000#32) (rowNorm x)

/-- The kernel's squared distance: over the class rows TRANSPOSED (`ET d c`) and their squared norms `e2 c`,
    which its wrapper computes before the launch. -/
def kerSq (x : Fin 512 → EReal) (ET : Fin 512 → Fin 2048 → EReal) (e2 : Fin 2048 → EReal) (c : Fin 2048) : EReal :=
  (sumSq x * kerInv x * kerInv x + e2 c) - Ideal.ofBits .f32 0x40000000#32 * ∑ d, (x d * kerInv x) * ET d c

/-- `√max(v, 0)`. -/
def clampSqrt (v : EReal) : EReal := Ideal.sqrt (max v (Ideal.ofBits .f32 0x00000000#32))

/-- The one-bit word that says class `c` is the label: the class number, as a 32-bit word, compared with the label word. -/
def isLabel (L : BitVec 32) (c : Fin 2048) : BitVec 1 := IntOp.cmpi .eq (BitVec.ofNat 32 c.val) L

/-- The reference's loss of one row: the label's distance read at class `j` (the class its gather lands on),
    the other classes' minimum taken over the distances with the label's masked to +∞. -/
def refRow (x : Fin 512 → EReal) (E : Fin 2048 → Fin 512 → EReal) (L : BitVec 32) (j : Fin 2048) : EReal :=
  (Ideal.ofBits .f32 0x3F800000#32 + clampSqrt (refSq x E j))
    - (Finset.univ : Finset (Fin 2048)).fold min (Ideal.ofBits .f32 0x7F800000#32)
        (fun c => Scalar.select (isLabel L c) (Ideal.ofBits .f32 0x7F800000#32) (clampSqrt (refSq x E c)))

/-- The kernel's loss of one row: the label's squared distance as the sum of the squared distances masked to
    zero off the label, the minimum over the squared distances with the label's masked to +∞, the square roots last. -/
def kerRow (x : Fin 512 → EReal) (ET : Fin 512 → Fin 2048 → EReal) (e2 : Fin 2048 → EReal) (L : BitVec 32) : EReal :=
  (Ideal.ofBits .f32 0x3F800000#32
      + clampSqrt (∑ c : Fin 2048, Scalar.select (isLabel L c) (kerSq x ET e2 c) (Ideal.ofBits .f32 0x00000000#32)))
    - clampSqrt ((Finset.univ : Finset (Fin 2048)).fold min (Ideal.ofBits .f32 0x7F800000#32)
        (fun c => Scalar.select (isLabel L c) (Ideal.ofBits .f32 0x7F800000#32) (kerSq x ET e2 c)))

/-- The mean of the 16384 row losses from their sum. -/
def meanOf (s : EReal) : EReal := Ideal.div s (Ideal.ofBits .f32 0x46800000#32)

end Cert.DistLoss

end
-- ==== Proof.RowMath.lean ====
/-
  The two row losses of the specification agree, over the extended reals.

  For a row `x` of real entries the norm `max (√(∑ x²)) ε` is a positive real, so dividing by it is
  multiplying by its reciprocal: the reference's unit vector is the row times the kernel's reciprocal,
  and the unit vector's sum of squares is `(∑ x²) · inv · inv`. Hence the two squared distances are the
  same extended real for every class, whatever the class rows hold. The kernel's masked sum picks the
  label's term, because the class number equals the label word exactly at the label; and `√max(·, 0)`
  is monotone and fixes `+∞`, so it passes through the minimum and through the mask.
-/
import proofs.«410166_j8942121910555_2_alg».proof.Proof.Spec
import Mathlib.Data.EReal.Inv
import Mathlib.Data.Finset.Fold
import Mathlib.Algebra.BigOperators.Group.Finset.Basic
import Mathlib.Algebra.BigOperators.Ring.Finset
import Mathlib.Analysis.SpecialFunctions.Pow.Real

noncomputable section

namespace Cert.DistLoss

open Idealize.ShloMosaic

/-! ### The literals whose values the mathematics needs -/

/-- The pattern of `1.0` denotes `1`. -/
theorem lit_one : Ideal.ofBits .f32 0x3F800000#32 = 1 := by
  simp [Ideal.ofBits, Ideal.ieee, -EReal.coe_mul] <;> norm_num

/-- The pattern of `+inf` denotes `⊤`. -/
theorem lit_top : Ideal.ofBits .f32 0x7F800000#32 = ⊤ := by
  simp [Ideal.ofBits, Ideal.ieee]

/-- The literal ε (`9223372 · 2⁻⁶³`, about `1e-12`) denotes a positive real. -/
theorem lit_eps_pos : ∃ e : ℝ, 0 < e ∧ Ideal.ofBits .f32 0x2B8CBCCC#32 = (e : EReal) := by
  simp [Ideal.ofBits, Ideal.ieee, -EReal.coe_mul]

/-! ### Real rows -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of squares of a real family is the real sum of squares. -/
theorem sumSq_coe {n : Nat} (r : Fin n → ℝ) :
    sumSq (fun d => (r d : EReal)) = ((∑ d, r d * r d : ℝ) : EReal) := by
  rw [sumSq, coe_sum]
  simp only [EReal.coe_mul]

/-- A real row's norm is a positive real: the larger of a real square root and the positive ε. -/
theorem rowNorm_coe (r : Fin 512 → ℝ) :
    ∃ N : ℝ, 0 < N ∧ rowNorm (fun d => (r d : EReal)) = (N : EReal) := by
  obtain ⟨e, he, hlit⟩ := lit_eps_pos
  refine ⟨max (Real.sqrt (∑ d, r d * r d)) e, lt_max_of_lt_right he, ?_⟩
  rw [rowNorm, sumSq_coe, hlit, Ideal.sqrt_coe,
    if_neg (not_lt.mpr (Finset.sum_nonneg fun d _ => mul_self_nonneg (r d)))]
  exact (EReal.coe_strictMono.monotone.map_max).symm

/-- For a real row the kernel's reciprocal is a real `k`, and the reference's unit vector is the row times `k`:
    division by a nonzero real is multiplication by its reciprocal. -/
theorem unit_real (r : Fin 512 → ℝ) :
    ∃ k : ℝ, kerInv (fun d => (r d : EReal)) = (k : EReal) ∧
      ∀ d, refUnit (fun d => (r d : EReal)) d = ((r d * k : ℝ) : EReal) := by
  obtain ⟨N, hN, hrow⟩ := rowNorm_coe r
  refine ⟨1 / N, ?_, fun d => ?_⟩
  · rw [kerInv, hrow, lit_one, Ideal.div_coe hN.ne', one_mul]
  · rw [refUnit, hrow, Ideal.div_coe hN.ne', EReal.coe_mul]

/-- The reference's unit vector is the row times the kernel's reciprocal of the norm. -/
theorem refUnit_eq (r : Fin 512 → ℝ) (d : Fin 512) :
    refUnit (fun d => (r d : EReal)) d = (r d : EReal) * kerInv (fun d => (r d : EReal)) := by
  obtain ⟨k, hk, hu⟩ := unit_real r
  rw [hu d, hk, EReal.coe_mul]

/-- The unit vector's sum of squares is the row's, times the reciprocal twice. -/
theorem sumSq_refUnit (r : Fin 512 → ℝ) :
    sumSq (refUnit (fun d => (r d : EReal))) =
      sumSq (fun d => (r d : EReal)) * kerInv (fun d => (r d : EReal)) * kerInv (fun d => (r d : EReal)) := by
  obtain ⟨k, hk, hu⟩ := unit_real r
  have hfun : refUnit (fun d => (r d : EReal)) = fun d => ((r d * k : ℝ) : EReal) := funext hu
  rw [hfun, sumSq_coe, hk, sumSq_coe, ← EReal.coe_mul, ← EReal.coe_mul]
  congr 1
  rw [Finset.sum_mul, Finset.sum_mul]
  exact Finset.sum_congr rfl fun d _ => by ring

/-- The two squared distances are the same extended real at every class, whatever the class rows hold. -/
theorem kerSq_eq_refSq (r : Fin 512 → ℝ) (E : Fin 2048 → Fin 512 → EReal) (c : Fin 2048) :
    kerSq (fun d => (r d : EReal)) (fun d c => E c d) (fun c => sumSq (E c)) c
      = refSq (fun d => (r d : EReal)) E c := by
  simp only [kerSq, refSq, sumSq_refUnit r, refUnit_eq r]

/-! ### The label's mask -/

/-- The class number, as a word, equals the label word exactly at the label's class. -/
theorem isLabel_eq_one_iff (L : BitVec 32) (hL : L.toNat < 2048) (c : Fin 2048) :
    isLabel L c = 1 ↔ c = ⟨L.toNat, hL⟩ := by
  have hbool : ∀ b : Bool, BitVec.ofBool b = 1 ↔ b = true := by decide
  have hword : isLabel L c = 1 ↔ BitVec.ofNat 32 c.val = L := by
    rw [isLabel, IntOp.cmpi, hbool, beq_iff_eq]
  rw [hword]
  constructor
  · intro h
    have hn := congrArg BitVec.toNat h
    rw [BitVec.toNat_ofNat, Nat.mod_eq_of_lt (by have := c.isLt; omega)] at hn
    exact Fin.ext hn
  · rintro rfl
    exact BitVec.eq_of_toNat_eq (by rw [BitVec.toNat_ofNat]; exact Nat.mod_eq_of_lt (by omega))

theorem select_at_label (L : BitVec 32) (hL : L.toNat < 2048) {α : Type} (a b : α) :
    Scalar.select (isLabel L ⟨L.toNat, hL⟩) a b = a :=
  if_pos ((isLabel_eq_one_iff L hL _).mpr rfl)

theorem select_off_label (L : BitVec 32) (hL : L.toNat < 2048) {c : Fin 2048} (hc : c ≠ ⟨L.toNat, hL⟩)
    {α : Type} (a b : α) : Scalar.select (isLabel L c) a b = b :=
  if_neg fun h => hc ((isLabel_eq_one_iff L hL c).mp h)

/-- A sum masked to zero off the label is the label's term. -/
theorem masked_sum (L : BitVec 32) (hL : L.toNat < 2048) (D : Fin 2048 → EReal) :
    ∑ c, Scalar.select (isLabel L c) (D c) (Ideal.ofBits .f32 0x00000000#32) = D ⟨L.toNat, hL⟩ := by
  rw [Finset.sum_eq_single (⟨L.toNat, hL⟩ : Fin 2048)]
  · exact select_at_label L hL _ _
  · intro c _ hc
    rw [select_off_label L hL hc, Ideal.ofBits_zero_f32]
  · intro h
    exact absurd (Finset.mem_univ _) h

/-! ### The clamped square root passes through the minimum -/

/-- The square root of the extended reals (`⊥` below zero) is monotone. -/
theorem sqrt_mono : Monotone Ideal.sqrt := by
  intro a b hab
  induction a using EReal.rec with
  | bot => rw [Ideal.sqrt_bot]; exact bot_le
  | top => rw [top_le_iff.mp hab]
  | coe r =>
    induction b using EReal.rec with
    | bot => exact absurd hab (by simp)
    | top => rw [Ideal.sqrt_top]; exact le_top
    | coe s =>
      have hrs : r ≤ s := EReal.coe_le_coe_iff.mp hab
      rw [Ideal.sqrt_coe, Ideal.sqrt_coe]
      split_ifs with h1 h2 h2
      · exact le_rfl
      · exact bot_le
      · exact absurd (lt_of_le_of_lt hrs h2) h1
      · exact EReal.coe_le_coe_iff.mpr (Real.sqrt_le_sqrt hrs)

theorem clampSqrt_mono : Monotone clampSqrt :=
  fun _ _ hab => sqrt_mono (max_le_max hab le_rfl)

theorem clampSqrt_top : clampSqrt ⊤ = ⊤ := by
  rw [clampSqrt, max_eq_left le_top, Ideal.sqrt_top]

theorem clampSqrt_select (b : BitVec 1) (u v : EReal) :
    clampSqrt (Scalar.select b u v) = Scalar.select b (clampSqrt u) (clampSqrt v) :=
  apply_ite clampSqrt _ _ _

/-- A monotone map that fixes `⊤` passes through a minimum over a finite set. -/
theorem clampSqrt_fold_min {ι : Type} (s : Finset ι) (g : ι → EReal) :
    clampSqrt (s.fold min ⊤ g) = s.fold min ⊤ (fun c => clampSqrt (g c)) := by
  have h := Finset.fold_hom (op := min) (op' := min) (f := g) (b := (⊤ : EReal)) (s := s) (m := clampSqrt)
    (fun _ _ => clampSqrt_mono.map_min)
  rw [clampSqrt_top] at h
  exact h.symm

/-! ### The two row losses -/

theorem kerRow_eq_refRow (x : Fin 512 → EReal) (E : Fin 2048 → Fin 512 → EReal) (L : BitVec 32)
    (hx : ∀ d, ∃ r : ℝ, x d = (r : EReal)) (hL : L.toNat < 2048) :
    kerRow x (fun d c => E c d) (fun c => sumSq (E c)) L = refRow x E L ⟨L.toNat, hL⟩ := by
  choose r hr using hx
  obtain rfl : x = fun d => (r d : EReal) := funext hr
  unfold kerRow refRow
  rw [masked_sum L hL, lit_top, clampSqrt_fold_min]
  simp only [clampSqrt_select, clampSqrt_top, kerSq_eq_refSq r E]

end Cert.DistLoss

end
-- ==== Proof.RefRows.lean ====
/-
  The reference's result, stage by stage, is the mean over the 16384 rows of the row loss `refRow`.

  In order: the squared distance of row `n`'s unit vector to class row `c` and its clamped square root; the two
  columns of the gather's start indices (the row number and the label, each with its extent added when it is
  negative as a signed word, which it never is here); the gather at row `n`, which reads the distance at
  (`n`, label) because the clamp into [0, 16383] × [0, 2047] changes neither coordinate; the minimum over the
  classes of the distances with the label's masked to +∞; the row loss; and the sum over the rows divided by
  the literal 16384.0. A float sum starts from the literal zero, which is the extended real `0`.
  Every lemma is stated at explicit coordinates `n : Fin 16384`, `c : Fin 2048`, `d : Fin 512`.
-/
import proofs.«410166_j8942121910555_2_alg».proof.Proof.Spec
import proofs.«410166_j8942121910555_2_alg».proof.Proof.Gen.ReferenceIdeal.Read
import Idealize.ShloMosaic.Lib.ValueIdxRank1

noncomputable section

namespace Cert.ReferenceIdeal.RefValue

open Cert.ReferenceIdeal Cert.ReferenceIdeal.Gen Cert.ReferenceIdeal.Read Cert.DistLoss
open Idealize.ShloMosaic Idealize.ShloMosaic.ValueIdx

local notation "G36" => gather_S16384x2048_S16384x2_S16384_n_01_n_n_01_1_11

/-! ## The squared distances and their square roots, at row `n` and class `c` -/

/-- The row's sum of squares: the sum that starts from the literal zero. -/
theorem call0_v1_at (x0 : (⟨S16384x512, .f32⟩ : BufTy).Contents (Elt Ideal)) (n : Fin 16384) :
    val_main_call0_v1 (F := Ideal) x0 (ix1 n) = sumSq (fun d => x0 (ix2 n d)) := by
  rw [val_main_call0_v1_apply]
  show Ideal.ofBits .f32 0x00000000#32 + _ = _
  rw [Ideal.ofBits_zero_f32, zero_add]
  unfold sumSq
  refine Finset.sum_congr rfl fun k _ => ?_
  have e : idx_main_call0_v1 (ix1 n) k = ix2 n k := by
    funext a; match a with | ⟨0, _⟩ => rfl | ⟨1, _⟩ => rfl
  rw [e]; rfl

/-- The row's norm, kept away from zero, broadcast along the row. -/
theorem v3_at (x0 : (⟨S16384x512, .f32⟩ : BufTy).Contents (Elt Ideal)) (n : Fin 16384) (d : Fin 512) :
    val_main_v3 (F := Ideal) x0 (ix2 n d) = rowNorm (fun d => x0 (ix2 n d)) := by
  rw [val_main_v3_apply, val_main_v2_apply, val_main_v0_apply, val_main_call0_v2_apply, val_main_v1_apply,
    val_main_cst_apply]
  have e : idx_main_call0_v2 (idx_main_v3 (ix2 n d)) = ix1 n := by
    funext a; match a with | ⟨0, _⟩ => rfl
  rw [e, call0_v1_at]
  rfl

/-- The row divided by its norm. -/
theorem v4_at (x0 : (⟨S16384x512, .f32⟩ : BufTy).Contents (Elt Ideal)) (n : Fin 16384) (d : Fin 512) :
    val_main_v4 (F := Ideal) x0 (ix2 n d) = refUnit (fun d => x0 (ix2 n d)) d := by
  rw [val_main_v4_apply, v3_at]
  rfl

/-- The unit vector's sum of squares. -/
theorem v6_at (x0 : (⟨S16384x512, .f32⟩ : BufTy).Contents (Elt Ideal)) (n : Fin 16384) :
    val_main_v6 (F := Ideal) x0 (ix1 n) = sumSq (refUnit (fun d => x0 (ix2 n d))) := by
  rw [val_main_v6_apply]
  show Ideal.ofBits .f32 0x00000000#32 + _ = _
  rw [Ideal.ofBits_zero_f32, zero_add]
  unfold sumSq
  refine Finset.sum_congr rfl fun k _ => ?_
  have e : idx_main_v6 (ix1 n) k = ix2 n k := by
    funext a; match a with | ⟨0, _⟩ => rfl | ⟨1, _⟩ => rfl
  rw [e, val_main_v5_apply, v4_at]
  rfl

/-- A class row's sum of squares. -/
theorem v9_at (x1 : (⟨S2048x512, .f32⟩ : BufTy).Contents (Elt Ideal)) (c : Fin 2048) :
    val_main_v9 (F := Ideal) x1 (ix1 c) = sumSq (fun d => x1 (ix2 c d)) := by
  rw [val_main_v9_apply]
  show Ideal.ofBits .f32 0x00000000#32 + _ = _
  rw [Ideal.ofBits_zero_f32, zero_add]
  unfold sumSq
  refine Finset.sum_congr rfl fun k _ => ?_
  have e : idx_main_v9 (ix1 c) k = ix2 c k := by
    funext a; match a with | ⟨0, _⟩ => rfl | ⟨1, _⟩ => rfl
  rw [e]; rfl

/-- The inner product of the unit vector with class row `c`: the contraction against the transposed class rows. -/
theorem v15_at (x0 : (⟨S16384x512, .f32⟩ : BufTy).Contents (Elt Ideal)) (x1 : (⟨S2048x512, .f32⟩ : BufTy).Contents (Elt Ideal))
    (n : Fin 16384) (c : Fin 2048) :
    val_main_v15 (F := Ideal) x0 x1 (ix2 n c) = ∑ d : Fin 512, refUnit (fun d => x0 (ix2 n d)) d * x1 (ix2 c d) := by
  rw [val_main_v15_apply]
  refine Finset.sum_congr rfl fun k _ => ?_
  have el : lidx_main_v15 (ix2 n c) k = ix2 n k := by
    funext a; match a with | ⟨0, _⟩ => rfl | ⟨1, _⟩ => rfl
  have er : idx_main_v14 (ridx_main_v15 (ix2 n c) k) = ix2 c k := by
    funext a; match a with | ⟨0, _⟩ => rfl | ⟨1, _⟩ => rfl
  rw [el, v4_at, val_main_v14_apply, er]

/-- The squared distance of row `n`'s unit vector to class row `c`. -/
theorem v18_at (x0 : (⟨S16384x512, .f32⟩ : BufTy).Contents (Elt Ideal)) (x1 : (⟨S2048x512, .f32⟩ : BufTy).Contents (Elt Ideal))
    (n : Fin 16384) (c : Fin 2048) :
    val_main_v18 (F := Ideal) x0 x1 (ix2 n c) = refSq (fun d => x0 (ix2 n d)) (fun c d => x1 (ix2 c d)) c := by
  rw [val_main_v18_apply, val_main_v13_apply, val_main_v17_apply, val_main_v11_apply, val_main_v7_apply,
    val_main_v12_apply, val_main_v10_apply, val_main_v16_apply, val_main_cst_2_apply, v15_at]
  have e1 : idx_main_v7 (idx_main_v11 (ix2 n c)) = ix1 n := by
    funext a; match a with | ⟨0, _⟩ => rfl
  have e2 : idx_main_v10 (idx_main_v12 (ix2 n c)) = ix1 c := by
    funext a; match a with | ⟨0, _⟩ => rfl
  rw [e1, e2, v6_at, v9_at]
  rfl

/-- The distance: the square root of the squared distance clamped at zero. -/
theorem v21_at (x0 : (⟨S16384x512, .f32⟩ : BufTy).Contents (Elt Ideal)) (x1 : (⟨S2048x512, .f32⟩ : BufTy).Contents (Elt Ideal))
    (n : Fin 16384) (c : Fin 2048) :
    val_main_v21 (F := Ideal) x0 x1 (ix2 n c) = clampSqrt (refSq (fun d => x0 (ix2 n d)) (fun c d => x1 (ix2 c d)) c) := by
  rw [val_main_v21_apply, val_main_v20_apply, val_main_v19_apply, val_main_cst_3_apply, v18_at]
  rfl

/-! ## The start indices of the gather: the row number and the label, each wrapped and then unchanged -/

/-- A 32-bit word below 2³¹ is not negative as a signed word: the comparison with zero answers the bit `0`. -/
theorem slt_zero_of_small {a : BitVec 32} (ha : a.toNat < 2 ^ 31) : IntOp.cmpi .slt a 0#32 = 0#1 := by
  have ma : a.msb = false := BitVec.msb_eq_false_iff_two_mul_lt.mpr (by omega)
  have hi : a.toInt = (a.toNat : Int) := by rw [BitVec.toInt_eq_msb_cond, ma]; simp
  have hs : a.slt 0#32 = false := by
    simp only [BitVec.slt, hi, BitVec.toInt_zero]
    exact decide_eq_false (by omega)
  show BitVec.ofBool (a.slt 0#32) = 0#1
  rw [hs]; rfl

/-- Such a word read as a signed integer is its value. -/
theorem toInt_toNat_of_small {a : BitVec 32} (ha : a.toNat < 2 ^ 31) : a.toInt.toNat = a.toNat := by
  have ma : a.msb = false := BitVec.msb_eq_false_iff_two_mul_lt.mpr (by omega)
  rw [BitVec.toInt_eq_msb_cond, ma]
  simp

/-- The wrapped row-number column is the row number. -/
theorem v27_at (n : Fin 16384) : val_main_v27 (F := Ideal) (ix1 n) = BitVec.ofNat 32 n.val := by
  rw [val_main_v27_apply, val_main_v24_apply, val_main_v23_apply, val_main_c_apply, val_main_v22_apply]
  show Scalar.select (IntOp.cmpi .slt (BitVec.ofNat 32 n.val) 0#32) _ (BitVec.ofNat 32 n.val) = _
  rw [slt_zero_of_small (by rw [BitVec.toNat_ofNat]; have := n.isLt; omega), select_zero]

/-- The wrapped label column is the label, a label below 2048 being non-negative. -/
theorem v32_at (x2 : (⟨S16384, .i32⟩ : BufTy).Contents (Elt Ideal)) (n : Fin 16384) (h : (x2 (ix1 n)).toNat < 2048) :
    val_main_v32 (F := Ideal) x2 (ix1 n) = x2 (ix1 n) := by
  rw [val_main_v32_apply, val_main_v29_apply, val_main_v28_apply, val_main_c_5_apply,
    slt_zero_of_small (by omega), select_zero]

/-- The first column of the start indices is the row-number column. -/
theorem v35_at0 (x2 : (⟨S16384, .i32⟩ : BufTy).Contents (Elt Ideal)) (n : Fin 16384) :
    val_main_v35 (F := Ideal) x2 (ix2 n (0 : Fin 2)) = BitVec.ofNat 32 n.val := by
  unfold val_main_v35
  rw [concatenate_pair_apply_left (t := S16384x2) (s₁ := S16384x1) (s₂ := S16384x1) (1 : Fin 2) _ _ concatenates_S16384x1_S16384x1_S16384x2_d1 (ix2 n (0 : Fin 2)) rfl
    (ix2 n (0 : Fin 1)) (fun b => by match b with | ⟨0, _⟩ => rfl | ⟨1, _⟩ => rfl)]
  rw [val_main_v33_apply]
  have e : idx_main_v33 (ix2 n (0 : Fin 1)) = ix1 n := by
    funext a; match a with | ⟨0, _⟩ => rfl
  rw [e, v27_at]

/-- The second column of the start indices is the wrapped label column. -/
theorem v35_at1 (x2 : (⟨S16384, .i32⟩ : BufTy).Contents (Elt Ideal)) (n : Fin 16384) (h : (x2 (ix1 n)).toNat < 2048) :
    val_main_v35 (F := Ideal) x2 (ix2 n (1 : Fin 2)) = x2 (ix1 n) := by
  unfold val_main_v35
  rw [concatenate_pair_apply_right (t := S16384x2) (s₁ := S16384x1) (s₂ := S16384x1) (1 : Fin 2) _ _ concatenates_S16384x1_S16384x1_S16384x2_d1 (ix2 n (1 : Fin 2)) rfl rfl
    (ix2 n (0 : Fin 1)) (fun b hb => by
      match b with
      | ⟨0, _⟩ => rfl
      | ⟨1, _⟩ => exact absurd rfl hb) rfl]
  rw [val_main_v34_apply]
  have e : idx_main_v34 (ix2 n (0 : Fin 1)) = ix1 n := by
    funext a; match a with | ⟨0, _⟩ => rfl
  rw [e, v32_at x2 n h]

/-! ## The gather -/

/-- The gather at row `n`, for any operand and start indices: the operand at the row's two start indices, each read
    as a signed integer and clamped into its axis. Both operand axes are collapsed and start-indexed, there are no
    batching and no offset axes, so the operand index is the clamped start on each axis. -/
theorem gather_at {α : Type} {w : Nat} (x : S16384x2048.Idx → α) (idx : IVec S16384x2 w) (n : Fin 16384) :
    Host.gather G36 x idx (ix1 n)
      = x (ix2 (⟨min (idx (ix2 n (0 : Fin 2))).toInt.toNat (16384 - 1), by omega⟩ : Fin 16384)
          (⟨min (idx (ix2 n (1 : Fin 2))).toInt.toNat (2048 - 1), by omega⟩ : Fin 2048)) := by
  unfold Host.gather
  congr 1
  funext a
  refine Fin.ext ?_
  have hm0 : (0 : Fin 2) ∈ (G36).startIndexMap := by show (0 : Fin 2) ∈ ([0, 1] : List (Fin 2)); decide
  have hm1 : (1 : Fin 2) ∈ (G36).startIndexMap := by show (1 : Fin 2) ∈ ([0, 1] : List (Fin 2)); decide
  have hb : ∀ a : Fin 2, a ∉ (G36).operandBatchingDims := fun a => by
    show a ∉ ([] : List (Fin 2)); exact List.not_mem_nil
  have hk0 : (0 : Fin 2) ∉ (G36).sKept := fun h =>
    ((GatherDims.mem_sKept _ _).mp h).1 (by show (0 : Fin 2) ∈ ([0, 1] : List (Fin 2)); decide)
  have hk1 : (1 : Fin 2) ∉ (G36).sKept := fun h =>
    ((GatherDims.mem_sKept _ _).mp h).1 (by show (1 : Fin 2) ∈ ([0, 1] : List (Fin 2)); decide)
  match a with
  | ⟨0, _⟩ =>
    show (G36).start (ix1 n) idx 0 + (G36).batchCoord (ix1 n) 0 + (G36).offCoord (ix1 n) 0 = _
    rw [GatherDims.batchCoord_eq_zero G36 (ix1 n) 0 (hb 0), GatherDims.offCoord_eq_zero G36 (ix1 n) 0 hk0]
    simp only [Nat.add_zero]
    unfold GatherDims.start
    rw [dif_pos hm0]
    have hsi : (G36).siIdx (ix1 n) ⟨List.idxOf (0 : Fin 2) (G36).startIndexMap, List.idxOf_lt_length_iff.2 hm0⟩
        = ix2 n (0 : Fin 2) := by
      funext b; refine Fin.ext ?_
      match b with
      | ⟨0, _⟩ => rfl
      | ⟨1, _⟩ => rfl
    rw [hsi]
    rfl
  | ⟨1, _⟩ =>
    show (G36).start (ix1 n) idx 1 + (G36).batchCoord (ix1 n) 1 + (G36).offCoord (ix1 n) 1 = _
    rw [GatherDims.batchCoord_eq_zero G36 (ix1 n) 1 (hb 1), GatherDims.offCoord_eq_zero G36 (ix1 n) 1 hk1]
    simp only [Nat.add_zero]
    unfold GatherDims.start
    rw [dif_pos hm1]
    have hsi : (G36).siIdx (ix1 n) ⟨List.idxOf (1 : Fin 2) (G36).startIndexMap, List.idxOf_lt_length_iff.2 hm1⟩
        = ix2 n (1 : Fin 2) := by
      funext b; refine Fin.ext ?_
      match b with
      | ⟨0, _⟩ => rfl
      | ⟨1, _⟩ => rfl
    rw [hsi]
    rfl

/-- The label's distance: the gather lands on row `n` and on the class the label names, the clamp changing neither. -/
theorem v36_at (x0 : (⟨S16384x512, .f32⟩ : BufTy).Contents (Elt Ideal)) (x1 : (⟨S2048x512, .f32⟩ : BufTy).Contents (Elt Ideal))
    (x2 : (⟨S16384, .i32⟩ : BufTy).Contents (Elt Ideal)) (n : Fin 16384) (h : (x2 (ix1 n)).toNat < 2048) :
    val_main_v36 (F := Ideal) x0 x1 x2 (ix1 n)
      = clampSqrt (refSq (fun d => x0 (ix2 n d)) (fun c d => x1 (ix2 c d)) ⟨(x2 (ix1 n)).toNat, h⟩) := by
  unfold val_main_v36
  rw [gather_at, ← v21_at]
  congr 1
  have h0 : min (val_main_v35 (F := Ideal) x2 (ix2 n (0 : Fin 2))).toInt.toNat (16384 - 1) = n.val := by
    rw [v35_at0, toInt_toNat_of_small (by rw [BitVec.toNat_ofNat]; have := n.isLt; omega), BitVec.toNat_ofNat]
    have := n.isLt; omega
  have h1 : min (val_main_v35 (F := Ideal) x2 (ix2 n (1 : Fin 2))).toInt.toNat (2048 - 1) = (x2 (ix1 n)).toNat := by
    rw [v35_at1 x2 n h, toInt_toNat_of_small (by omega)]
    omega
  funext a
  refine Fin.ext ?_
  match a with
  | ⟨0, _⟩ => exact h0
  | ⟨1, _⟩ => exact h1

/-! ## The minimum over the other classes -/

/-- The distances with the label's masked to +∞. -/
theorem v43_at (x0 : (⟨S16384x512, .f32⟩ : BufTy).Contents (Elt Ideal)) (x1 : (⟨S2048x512, .f32⟩ : BufTy).Contents (Elt Ideal))
    (x2 : (⟨S16384, .i32⟩ : BufTy).Contents (Elt Ideal)) (n : Fin 16384) (c : Fin 2048) :
    val_main_v43 (F := Ideal) x0 x1 x2 (ix2 n c)
      = Scalar.select (isLabel (x2 (ix1 n)) c) (Ideal.ofBits .f32 0x7F800000#32)
          (clampSqrt (refSq (fun d => x0 (ix2 n d)) (fun c d => x1 (ix2 c d)) c)) := by
  rw [val_main_v43_apply, val_main_v42_apply, val_main_v40_apply, val_main_v38_apply, val_main_v37_apply,
    val_main_v41_apply, val_main_v39_apply, val_main_call1_v1_apply, val_main_call1_v0_apply, val_main_cst_7_apply, v21_at]
  have e : idx_main_v39 (idx_main_v41 (ix2 n c)) = ix1 n := by
    funext a; match a with | ⟨0, _⟩ => rfl
  rw [e]
  rfl

/-- The row minimum: the fold of `min` from +∞ over the classes. -/
theorem v44_at (x0 : (⟨S16384x512, .f32⟩ : BufTy).Contents (Elt Ideal)) (x1 : (⟨S2048x512, .f32⟩ : BufTy).Contents (Elt Ideal))
    (x2 : (⟨S16384, .i32⟩ : BufTy).Contents (Elt Ideal)) (n : Fin 16384) :
    val_main_v44 (F := Ideal) x0 x1 x2 (ix1 n)
      = (Finset.univ : Finset (Fin 2048)).fold min (Ideal.ofBits .f32 0x7F800000#32)
          (fun c => Scalar.select (isLabel (x2 (ix1 n)) c) (Ideal.ofBits .f32 0x7F800000#32)
            (clampSqrt (refSq (fun d => x0 (ix2 n d)) (fun c d => x1 (ix2 c d)) c))) := by
  unfold val_main_v44
  have hR : S16384x2048.Reduces [1] S16384 := by decide
  rw [Host.reduce_eq_fold_single FloatOps.minimumf _ _ reducesTo_S16384x2048_S16384_d1 hR h_S_ (ix1 n)]
  have ef : ∀ c : Fin 2048, val_main_v43 (F := Ideal) x0 x1 x2 (hR.lift (ix1 n) c)
      = Scalar.select (isLabel (x2 (ix1 n)) c) (Ideal.ofBits .f32 0x7F800000#32)
          (clampSqrt (refSq (fun d => x0 (ix2 n d)) (fun c d => x1 (ix2 c d)) c)) := fun c => by
    have e : hR.lift (ix1 n) c = ix2 n c := by
      funext a; refine Fin.ext ?_
      match a with
      | ⟨0, _⟩ => rfl
      | ⟨1, _⟩ => rfl
    rw [e, v43_at]
  have ef' : (val_main_v43 (F := Ideal) x0 x1 x2 ∘ hR.lift (ix1 n))
      = fun c : Fin 2048 => Scalar.select (isLabel (x2 (ix1 n)) c) (Ideal.ofBits .f32 0x7F800000#32)
          (clampSqrt (refSq (fun d => x0 (ix2 n d)) (fun c d => x1 (ix2 c d)) c)) := funext ef
  rw [ef']
  rfl

/-! ## The row loss and the mean -/

/-- The row loss. -/
theorem v47_at (x0 : (⟨S16384x512, .f32⟩ : BufTy).Contents (Elt Ideal)) (x1 : (⟨S2048x512, .f32⟩ : BufTy).Contents (Elt Ideal))
    (x2 : (⟨S16384, .i32⟩ : BufTy).Contents (Elt Ideal)) (n : Fin 16384) (h : (x2 (ix1 n)).toNat < 2048) :
    val_main_v47 (F := Ideal) x0 x1 x2 (ix1 n)
      = refRow (fun d => x0 (ix2 n d)) (fun c d => x1 (ix2 c d)) (x2 (ix1 n)) ⟨(x2 (ix1 n)).toNat, h⟩ := by
  rw [val_main_v47_apply, val_main_v46_apply, val_main_v45_apply, val_main_cst_9_apply, v36_at x0 x1 x2 n h, v44_at]
  rfl

/-- The reference's result is the mean of the row losses. -/
theorem ref_value (x0 : (⟨S16384x512, .f32⟩ : BufTy).Contents (Elt Ideal)) (x1 : (⟨S2048x512, .f32⟩ : BufTy).Contents (Elt Ideal))
    (x2 : (⟨S16384, .i32⟩ : BufTy).Contents (Elt Ideal)) (hL : ∀ n : Fin 16384, (x2 (ix1 n)).toNat < 2048) :
    Cert.ReferenceIdeal.Read.val_main_v49 (F := Ideal) x0 x1 x2
      = fun _ => Cert.DistLoss.meanOf (∑ n : Fin 16384, Cert.DistLoss.refRow (fun d => x0 (ix2 n d)) (fun c d => x1 (ix2 c d)) (x2 (ix1 n)) ⟨(x2 (ix1 n)).toNat, hL n⟩) := by
  funext i
  rw [val_main_v49_apply, val_main_v48_apply, val_main_cst_11_apply]
  show Ideal.div (Ideal.ofBits .f32 0x00000000#32 + ∑ j : S16384.Idx, val_main_v47 (F := Ideal) x0 x1 x2 j)
    (Ideal.ofBits .f32 0x46800000#32) = _
  rw [Ideal.ofBits_zero_f32, zero_add]
  have hs : ∑ j : S16384.Idx, val_main_v47 (F := Ideal) x0 x1 x2 j
      = ∑ n : Fin 16384, refRow (fun d => x0 (ix2 n d)) (fun c d => x1 (ix2 c d)) (x2 (ix1 n)) ⟨(x2 (ix1 n)).toNat, hL n⟩ := by
    rw [← Equiv.sum_comp (idxEquiv1 (n := 16384)).symm]
    exact Finset.sum_congr rfl fun n _ => v47_at x0 x1 x2 n (hL n)
  rw [hs]
  rfl

end Cert.ReferenceIdeal.RefValue

end
-- ==== Proof.PreFacts.lean ====
/-
  What the printed precondition says of the inputs, read back.

  The precondition is the conjunction of three "for all elements" tests, each a reduction by `and` from 1:
  the first array's absolute values are below `+∞`, the second array's likewise, and every label word `L`
  satisfies `0 ≤ L` and `L < 2048` as a signed number. If the conjunction is 1, every element passed its test.
  An extended real whose absolute value `max x (−x)` is below `⊤` is neither `⊥` nor `⊤`, so it is a real;
  a 32-bit word whose signed value lies in `[0, 2048)` has that value as its unsigned value too.
-/
import proofs.«410166_j8942121910555_2_alg».proof.Pre_finite_inputs
import proofs.«410166_j8942121910555_2_alg».proof.Proof.Gen.Pre_finite_inputs
import Idealize.ShloMosaic.Lib.ReduceAll
import Idealize.ShloMosaic.Lib.ValueIdx
import Idealize.ShloMosaic.Lib.Affine
import Idealize.ShloMosaic.PureOps.Ideal
import Mathlib.Data.EReal.Basic

noncomputable section

namespace Cert.DistLoss.PreFacts

open Idealize.ShloMosaic Idealize.ShloMosaic.ValueIdx

/-- The scalar shape has one index. -/
instance : Subsingleton Cert.Pre_finite_inputs.S_.Idx := ⟨fun _ _ => funext fun d => d.elim0⟩

/-- A one-bit word made from a decision is 1 exactly when the decision holds. -/
theorem ofBool_decide_eq_one {p : Prop} [Decidable p] (h : BitVec.ofBool (decide p) = 1#1) : p := by
  by_contra hn
  rw [decide_eq_false hn] at h
  exact absurd h (by decide)

/-- An extended real whose absolute value compares below the pattern of `+inf` is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := ofBool_decide_eq_one h
  induction x using EReal.rec with
  | bot => exact absurd hlt (by simp)
  | top => exact absurd hlt (by simp)
  | coe r => exact ⟨r, rfl⟩

/-- A 32-bit word between 0 and 2048 as a signed number is below 2048 as an unsigned one. -/
theorem toNat_lt_of_signed_range (L : BitVec 32)
    (h0 : IntOp.cmpi .sge L 0#32 = 1#1) (h1 : IntOp.cmpi .slt L 2048#32 = 1#1) : L.toNat < 2048 := by
  have h0' := IntOp.cmpi_sge.1 h0
  have h1' := IntOp.cmpi_slt.1 h1
  have e0 : (0#32 : BitVec 32).toInt = 0 := by decide
  have e1 : (2048#32 : BitVec 32).toInt = 2048 := by decide
  rw [e0] at h0'
  rw [e1] at h1'
  rw [BitVec.toInt_eq_toNat_cond] at h0' h1'
  have := L.isLt
  split_ifs at h0' h1' <;> omega

theorem facts_of_pre (a0 : Cert.Pre_finite_inputs.S16384x512.Idx → EReal) (a1 : Cert.Pre_finite_inputs.S2048x512.Idx → EReal)
    (a2 : IVec Cert.Pre_finite_inputs.S16384 32)
    (h : Cert.Pre_finite_inputs.fn (F := Ideal) a0 a1 a2 = fun _ => 1#1) :
    (∀ i, ∃ r : ℝ, a0 i = (r : EReal)) ∧ (∀ n : Fin 16384, (a2 (ix1 n)).toNat < 2048) := by
  have h0 := congrFun h ix0
  dsimp only [Cert.Pre_finite_inputs.fn] at h0
  obtain ⟨h87, h14⟩ := IntOp.andi_eq_one.1 h0
  obtain ⟨h3, -⟩ := IntOp.andi_eq_one.1 h87
  refine ⟨fun i => ?_, fun n => ?_⟩
  · exact real_of_abs_lt_inf (a0 i) (Host.reduce_andi_all _ _ _ _ ix0 h3 i)
  · obtain ⟨hge, hlt⟩ := IntOp.andi_eq_one.1 (Host.reduce_andi_all _ _ _ _ ix0 h14 (ix1 n))
    exact toNat_lt_of_signed_range (a2 (ix1 n)) hge hlt

end Cert.DistLoss.PreFacts

end
-- ==== Proof.KernelRow.lean ====
/-
  The kernel body's arithmetic, read at an entry, at the extended reals.

  At every grid point the body loads a 512 × 512 block of input rows, the 512 × 2048 block of class rows transposed, the
  1 × 2048 block of their squared norms and a 512 × 1 block of labels, and stores a 1 × 1 × 512 block: lane j of it is the
  margin loss of row j. The lemmas below read each payload of the body's skeleton at explicit coordinates — a row sum
  as a sum over the row's 512 coordinates, the matrix product's entry as the sum over the contracted coordinate, the
  column broadcasts and the reshapes as the coordinate they keep — until lane j of the stored block is
  `Cert.DistLoss.kerRow` of row j of the blocks (`out_row`).
-/
import proofs.«410166_j8942121910555_2_alg».proof.Proof.Spec
import proofs.«410166_j8942121910555_2_alg».proof.Proof.Gen.KernelIdeal.Skeleton
import proofs.«410166_j8942121910555_2_alg».proof.Proof.Gen.KernelIdeal.Frame
import Idealize.ShloMosaic.Lib.Pipeline.Value
import Idealize.ShloMosaic.Lib.ValueIdx
import Idealize.ShloMosaic.PureOps.Ideal.Laws

noncomputable section
namespace Cert.KernelIdeal.RowValue

open Cert.KernelIdeal Idealize.ShloMosaic Idealize.ShloMosaic.ValueIdx Cert.DistLoss

/-- A column [512] viewed as [512,1], read at row j. -/
theorem col_cast_apply {α : Type} (v : S512.Idx → α) (h : S512.ShapeCasts S512x1) (j : Fin 512) :
    shapeCast S512x1 v h (ix2 j (0 : Fin 1)) = v (ix1 j) := by
  refine shapeCast_apply v h (ix2 j (0 : Fin 1)) (ix1 j) ?_
  rw [Shape.rowMajor_val_one, Shape.rowMajor_val_two]
  show (j : Nat) = (j : Nat) * 1 + 0
  omega

theorem lift_row_512 (h : S512x512.Reduces [1] S512) (j : Fin 512) (d : Fin 512) :
    h.lift (ix1 j) d = ix2 j d := by
  funext a; apply Fin.ext
  match a with
  | ⟨0, _⟩ => rfl
  | ⟨1, _⟩ => rfl

theorem lift_row_2048 (h : S512x2048.Reduces [1] S512) (j : Fin 512) (c : Fin 2048) :
    h.lift (ix1 j) c = ix2 j c := by
  funext a; apply Fin.ext
  match a with
  | ⟨0, _⟩ => rfl
  | ⟨1, _⟩ => rfl

theorem row_sumsq (x0 : FVec Ideal S512x512 .f32) (h : S512x512.Reduces [1] S512) (hφ : FKind.Formats .f32) (hacc : (0x00000000#32 : BitVec 32) = 0x00000000#32) (j : Fin 512) :
    multiReduction .add [1] S512 (mulf x0 x0) 0x00000000#32 h hφ hacc (ix1 j)
      = sumSq (fun d : Fin 512 => x0 (ix2 j d)) := by
  refine (Ideal.multiReduction_add_single (mulf x0 x0) 0x00000000#32 h hφ hacc (ix1 j)).trans ?_
  unfold sumSq
  refine Finset.sum_congr rfl fun d _ => ?_
  have e : h.lift (ix1 j) d = ix2 j d := lift_row_512 h j d
  exact congrArg (fun i => x0 i * x0 i) e

/-- [512,1] → [512,512] and [512,1] → [512,2048]: a column broadcast along the rows reads the column at the row. -/
theorem col_bcast_512 {α : Type} (v : S512x1.Idx → α) (h : S512x1.Broadcasts S512x512) (j : Fin 512) (d : Fin 512) :
    broadcastTo S512x512 v h (ix2 j d) = v (ix2 j (0 : Fin 1)) := by
  refine broadcastTo_apply v h (ix2 j d) (ix2 j (0 : Fin 1)) fun a => ?_
  match a with
  | ⟨0, _⟩ => rfl
  | ⟨1, _⟩ => rfl

theorem col_bcast_2048 {α : Type} (v : S512x1.Idx → α) (h : S512x1.Broadcasts S512x2048) (j : Fin 512) (c : Fin 2048) :
    broadcastTo S512x2048 v h (ix2 j c) = v (ix2 j (0 : Fin 1)) := by
  refine broadcastTo_apply v h (ix2 j c) (ix2 j (0 : Fin 1)) fun a => ?_
  match a with
  | ⟨0, _⟩ => rfl
  | ⟨1, _⟩ => rfl

theorem row_bcast_2048 {α : Type} (v : S1x2048.Idx → α) (h : S1x2048.Broadcasts S512x2048) (j : Fin 512) (c : Fin 2048) :
    broadcastTo S512x2048 v h (ix2 j c) = v (ix2 (0 : Fin 1) c) := by
  refine broadcastTo_apply v h (ix2 j c) (ix2 (0 : Fin 1) c) fun a => ?_
  match a with
  | ⟨0, _⟩ => rfl
  | ⟨1, _⟩ => rfl

/-! The kernel's matrix product at an entry: the sum over the contracted coordinate. -/

theorem lhs_dot_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs_dot_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem rhs_dot_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem rhs_dot_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- Entry (j, c) of the product into a zero accumulator is the sum over d of lhs (j, d) · rhs (d, c). -/
theorem matmul_entry (l : FVec Ideal S512x512 .bf16) (r : FVec Ideal S512x2048 .bf16) (j : Fin 512) (c : Fin 2048) :
    matmul dot_S512x512_S512x2048_S512x2048_1_0_0_1_n_n none l r (constant S512x2048 .f32 0x00000000#32) (ix2 j c)
      = ∑ d : Fin 512, l (ix2 j d) * r (ix2 d c) := by
  simp only [matmul]
  rw [Ideal.matmul_constant_zero_apply, ← Equiv.sum_comp (ValueIdx.contrEquiv1 dot_S512x512_S512x2048_S512x2048_1_0_0_1_n_n 512 rfl rfl).symm]
  refine Finset.sum_congr rfl fun k _ => ?_
  have hk := ValueIdx.contrEquiv1_symm_val dot_S512x512_S512x2048_S512x2048_1_0_0_1_n_n 512 rfl rfl k
  have el : dot_S512x512_S512x2048_S512x2048_1_0_0_1_n_n.lhsIdx (ix2 j c) ((ValueIdx.contrEquiv1 dot_S512x512_S512x2048_S512x2048_1_0_0_1_n_n 512 rfl rfl).symm k) = ix2 j k := funext fun a => Fin.ext (by
    match a with
    | ⟨0, _⟩ => exact lhs_dot_0 _ _
    | ⟨1, _⟩ => exact (lhs_dot_1 _ _).trans hk)
  have er : dot_S512x512_S512x2048_S512x2048_1_0_0_1_n_n.rhsIdx (ix2 j c) ((ValueIdx.contrEquiv1 dot_S512x512_S512x2048_S512x2048_1_0_0_1_n_n 512 rfl rfl).symm k) = ix2 k c := funext fun a => Fin.ext (by
    match a with
    | ⟨0, _⟩ => exact (rhs_dot_0 _ _).trans hk
    | ⟨1, _⟩ => exact rhs_dot_1 _ _)
  rw [el, er]

/-! The payloads at an entry. -/

/-- The squared-distance payload over a row-sum column `v3` and a reciprocal column `v8` standing for the body's own:
    entry (j, c) reads the two columns at row j, the class norms at column c, and the product's entry. -/
theorem sq_core (x0 : FVec Ideal S512x512 .f32) (x1 : FVec Ideal S512x2048 .bf16) (x2 : FVec Ideal S1x2048 .f32)
    (v3 v8 : FVec Ideal S512x1 .f32) (hb1 : S512x1.Broadcasts S512x2048) (hs : S1x2048.ShapeCasts S1x2048)
    (hb2 : S1x2048.Broadcasts S512x2048) (hb3 : S512x1.Broadcasts S512x512) (hlt : FTy.bits .bf16 < FTy.bits .f32)
    (hs2 : S512x2048.ShapeCasts S512x2048) (j : Fin 512) (c : Fin 2048) :
    subf (addf (broadcastTo S512x2048 (mulf (mulf v3 v8) v8) hb1) (broadcastTo S512x2048 (shapeCast S1x2048 x2 hs) hb2))
        (mulf (broadcast S512x2048 (FloatOps.ofBits .f32 0x40000000#32))
          (matmul dot_S512x512_S512x2048_S512x2048_1_0_0_1_n_n none (truncf .bf16 (mulf x0 (broadcastTo S512x512 v8 hb3)) hlt)
            (shapeCast S512x2048 x1 hs2) (constant S512x2048 .f32 0x00000000#32))) (ix2 j c)
      = (v3 (ix2 j (0 : Fin 1)) * v8 (ix2 j (0 : Fin 1)) * v8 (ix2 j (0 : Fin 1)) + x2 (ix2 (0 : Fin 1) c))
          - Ideal.ofBits .f32 0x40000000#32 * ∑ d : Fin 512, (x0 (ix2 j d) * v8 (ix2 j (0 : Fin 1))) * x1 (ix2 d c) := by
  show (broadcastTo S512x2048 (mulf (mulf v3 v8) v8) hb1 (ix2 j c) + broadcastTo S512x2048 (shapeCast S1x2048 x2 hs) hb2 (ix2 j c))
      - (Ideal.ofBits .f32 0x40000000#32 * matmul dot_S512x512_S512x2048_S512x2048_1_0_0_1_n_n none (truncf .bf16 (mulf x0 (broadcastTo S512x512 v8 hb3)) hlt)
            (shapeCast S512x2048 x1 hs2) (constant S512x2048 .f32 0x00000000#32) (ix2 j c)) = _
  rw [col_bcast_2048, row_bcast_2048, shapeCast_self, shapeCast_self, matmul_entry]
  refine congrArg (fun t => _ - Ideal.ofBits .f32 0x40000000#32 * t) (Finset.sum_congr rfl fun d _ => ?_)
  show (x0 (ix2 j d) * broadcastTo S512x512 v8 hb3 (ix2 j d)) * x1 (ix2 d c) = _
  rw [col_bcast_512]

/-- The squared-distance payload with its side conditions as variables: entry (j, c) is `kerSq` of row j of the
    first block, the second block as the transposed class rows and the third as their squared norms. -/
theorem pay2_gen (x0 : FVec Ideal S512x512 .f32) (x1 : FVec Ideal S512x2048 .bf16) (x2 : FVec Ideal S1x2048 .f32)
    (hr : S512x512.Reduces [1] S512) (hφ : FKind.Formats .f32) (hacc : (0x00000000#32 : BitVec 32) = 0x00000000#32)
    (hsc : S512.ShapeCasts S512x1) (hb1 : S512x1.Broadcasts S512x2048) (hs : S1x2048.ShapeCasts S1x2048)
    (hb2 : S1x2048.Broadcasts S512x2048) (hb3 : S512x1.Broadcasts S512x512) (hlt : FTy.bits .bf16 < FTy.bits .f32)
    (hs2 : S512x2048.ShapeCasts S512x2048) (j : Fin 512) (c : Fin 2048) :
    subf (addf (broadcastTo S512x2048
            (mulf (mulf (shapeCast S512x1 (multiReduction FKind.add [1] S512 (mulf x0 x0) 0x00000000#32 hr hφ hacc) hsc)
                (divf (broadcast S512x1 (FloatOps.ofBits FTy.f32 0x3F800000#32))
                  (maximumf (sqrt (shapeCast S512x1 (multiReduction FKind.add [1] S512 (mulf x0 x0) 0x00000000#32 hr hφ hacc) hsc))
                    (broadcast S512x1 (FloatOps.ofBits FTy.f32 0x2B8CBCCC#32)))))
              (divf (broadcast S512x1 (FloatOps.ofBits FTy.f32 0x3F800000#32))
                (maximumf (sqrt (shapeCast S512x1 (multiReduction FKind.add [1] S512 (mulf x0 x0) 0x00000000#32 hr hφ hacc) hsc))
                  (broadcast S512x1 (FloatOps.ofBits FTy.f32 0x2B8CBCCC#32))))) hb1)
          (broadcastTo S512x2048 (shapeCast S1x2048 x2 hs) hb2))
        (mulf (broadcast S512x2048 (FloatOps.ofBits .f32 0x40000000#32))
          (matmul dot_S512x512_S512x2048_S512x2048_1_0_0_1_n_n none
            (truncf .bf16 (mulf x0 (broadcastTo S512x512
              (divf (broadcast S512x1 (FloatOps.ofBits FTy.f32 0x3F800000#32))
                (maximumf (sqrt (shapeCast S512x1 (multiReduction FKind.add [1] S512 (mulf x0 x0) 0x00000000#32 hr hφ hacc) hsc))
                  (broadcast S512x1 (FloatOps.ofBits FTy.f32 0x2B8CBCCC#32)))) hb3)) hlt)
            (shapeCast S512x2048 x1 hs2) (constant S512x2048 .f32 0x00000000#32))) (ix2 j c)
      = kerSq (fun d : Fin 512 => x0 (ix2 j d)) (fun (d : Fin 512) (c : Fin 2048) => x1 (ix2 d c)) (fun c : Fin 2048 => x2 (ix2 (0 : Fin 1) c)) c := by
  generalize hV3 : shapeCast S512x1 (multiReduction FKind.add [1] S512 (mulf x0 x0) 0x00000000#32 hr hφ hacc) hsc = V3
  generalize hV8 : divf (broadcast S512x1 (FloatOps.ofBits FTy.f32 0x3F800000#32)) (maximumf (sqrt V3) (broadcast S512x1 (FloatOps.ofBits FTy.f32 0x2B8CBCCC#32))) = V8
  refine (sq_core x0 x1 x2 V3 V8 hb1 hs hb2 hb3 hlt hs2 j c).trans ?_
  have h3 : V3 (ix2 j (0 : Fin 1)) = sumSq (fun d : Fin 512 => x0 (ix2 j d)) := by
    rw [← hV3]; exact (col_cast_apply _ hsc j).trans (row_sumsq x0 hr hφ hacc j)
  have h8 : V8 (ix2 j (0 : Fin 1)) = kerInv (fun d : Fin 512 => x0 (ix2 j d)) := by
    rw [← hV8]
    show Ideal.div (Ideal.ofBits .f32 0x3F800000#32) (max (Ideal.sqrt (V3 (ix2 j (0 : Fin 1)))) (Ideal.ofBits .f32 0x2B8CBCCC#32)) = _
    rw [h3]; rfl
  rw [h3, h8]
  rfl

theorem pay2_at (x0 : FVec Ideal S512x512 .f32) (x1 : FVec Ideal S512x2048 .bf16) (x2 : FVec Ideal S1x2048 .f32) (j : Fin 512) (c : Fin 2048) :
    Gen.k0_pay2 (F := Ideal) x0 x1 x2 (ix2 j c)
      = kerSq (fun d : Fin 512 => x0 (ix2 j d)) (fun (d : Fin 512) (c : Fin 2048) => x1 (ix2 d c)) (fun c : Fin 2048 => x2 (ix2 (0 : Fin 1) c)) c := by
  unfold Gen.k0_pay2
  exact pay2_gen x0 x1 x2 _ _ _ _ _ _ _ _ _ _ j c

/-- The one-hot mask at entry (j, c): class number c against row j's label word. -/
theorem pay3_at (x3 : IVec S512x1 32) (j : Fin 512) (c : Fin 2048) :
    Gen.k0_pay3 (F := Ideal) x3 (ix2 j c) = isLabel (x3 (ix2 j (0 : Fin 1))) c := by
  unfold Gen.k0_pay3
  dsimp only
  show IntOp.cmpi .eq (iota .tc S512x2048 32 [1] _ (ix2 j c)) (broadcastTo S512x2048 (shapeCast S512x1 x3 _) _ (ix2 j c)) = _
  rw [iota_single_apply, col_bcast_2048, shapeCast_self]
  rfl

/-- A `minimumf` reduction over one axis, read at an index: the fold of `min` from the accumulator's value over that
    axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

theorem pay4_gen (x0 : FVec Ideal S512x512 .f32) (x1 : FVec Ideal S512x2048 .bf16) (x2 : FVec Ideal S1x2048 .f32) (x3 : IVec S512x1 32)
    (hr : S512x2048.Reduces [1] S512) (hφ : FKind.Formats .f32) (hacc : (0x7F800000#32 : BitVec 32) = FKind.minimumf.neutral .f32 hφ)
    (hsc : S512.ShapeCasts S512x1) (j : Fin 512) :
    shapeCast S512x1 (multiReduction .minimumf [1] S512
        (select (Gen.k0_pay3 (F := Ideal) x3) (broadcast S512x2048 (FloatOps.ofBits .f32 0x7F800000#32)) (Gen.k0_pay2 (F := Ideal) x0 x1 x2))
        0x7F800000#32 hr hφ hacc) hsc (ix2 j (0 : Fin 1))
      = (Finset.univ : Finset (Fin 2048)).fold min (Ideal.ofBits .f32 0x7F800000#32)
          (fun c => Scalar.select (isLabel (x3 (ix2 j (0 : Fin 1))) c) (Ideal.ofBits .f32 0x7F800000#32)
            (kerSq (fun d : Fin 512 => x0 (ix2 j d)) (fun (d : Fin 512) (c : Fin 2048) => x1 (ix2 d c)) (fun c : Fin 2048 => x2 (ix2 (0 : Fin 1) c)) c)) := by
  refine (col_cast_apply _ hsc j).trans ?_
  refine (multiReduction_minimumf_single _ _ hr hφ hacc (ix1 j)).trans ?_
  refine congrArg (Finset.fold min (Ideal.ofBits .f32 0x7F800000#32) · (Finset.univ : Finset (Fin 2048))) (funext fun (c : Fin 2048) => ?_)
  have e : hr.lift (ix1 j) c = ix2 j c := lift_row_2048 hr j c
  show select (Gen.k0_pay3 (F := Ideal) x3) (broadcast S512x2048 (FloatOps.ofBits .f32 0x7F800000#32)) (Gen.k0_pay2 (F := Ideal) x0 x1 x2) (hr.lift (ix1 j) c) = _
  rw [e]
  show Scalar.select (Gen.k0_pay3 (F := Ideal) x3 (ix2 j c)) (Ideal.ofBits .f32 0x7F800000#32) (Gen.k0_pay2 (F := Ideal) x0 x1 x2 (ix2 j c)) = _
  rw [pay3_at, pay2_at]

theorem pay4_at (x0 : FVec Ideal S512x512 .f32) (x1 : FVec Ideal S512x2048 .bf16) (x2 : FVec Ideal S1x2048 .f32) (x3 : IVec S512x1 32) (j : Fin 512) :
    Gen.k0_pay4 (F := Ideal) x0 x1 x2 x3 (ix2 j (0 : Fin 1))
      = (Finset.univ : Finset (Fin 2048)).fold min (Ideal.ofBits .f32 0x7F800000#32)
          (fun c => Scalar.select (isLabel (x3 (ix2 j (0 : Fin 1))) c) (Ideal.ofBits .f32 0x7F800000#32)
            (kerSq (fun d : Fin 512 => x0 (ix2 j d)) (fun (d : Fin 512) (c : Fin 2048) => x1 (ix2 d c)) (fun c : Fin 2048 => x2 (ix2 (0 : Fin 1) c)) c)) := by
  unfold Gen.k0_pay4
  exact pay4_gen x0 x1 x2 x3 _ _ _ _ j

theorem pay5_gen (x0 : FVec Ideal S512x512 .f32) (x1 : FVec Ideal S512x2048 .bf16) (x2 : FVec Ideal S1x2048 .f32) (x3 : IVec S512x1 32)
    (hr : S512x2048.Reduces [1] S512) (hφ : FKind.Formats .f32) (hacc : (0x00000000#32 : BitVec 32) = 0x00000000#32)
    (hsc : S512.ShapeCasts S512x1) (j : Fin 512) :
    sqrt (maximumf (shapeCast S512x1 (multiReduction .add [1] S512
        (select (Gen.k0_pay3 (F := Ideal) x3) (Gen.k0_pay2 (F := Ideal) x0 x1 x2) (broadcast S512x2048 (FloatOps.ofBits .f32 0x00000000#32)))
        0x00000000#32 hr hφ hacc) hsc) (broadcast S512x1 (FloatOps.ofBits .f32 0x00000000#32))) (ix2 j (0 : Fin 1))
      = clampSqrt (∑ c : Fin 2048, Scalar.select (isLabel (x3 (ix2 j (0 : Fin 1))) c)
            (kerSq (fun d : Fin 512 => x0 (ix2 j d)) (fun (d : Fin 512) (c : Fin 2048) => x1 (ix2 d c)) (fun c : Fin 2048 => x2 (ix2 (0 : Fin 1) c)) c)
            (Ideal.ofBits .f32 0x00000000#32)) := by
  show Ideal.sqrt (max (shapeCast S512x1 _ hsc (ix2 j (0 : Fin 1))) (Ideal.ofBits .f32 0x00000000#32)) = _
  unfold clampSqrt
  refine congrArg (fun t => Ideal.sqrt (max t (Ideal.ofBits .f32 0x00000000#32))) ?_
  refine (col_cast_apply _ hsc j).trans ?_
  refine (Ideal.multiReduction_add_single _ 0x00000000#32 hr hφ hacc (ix1 j)).trans ?_
  refine Finset.sum_congr rfl fun (c : Fin 2048) _ => ?_
  have e : hr.lift (ix1 j) c = ix2 j c := lift_row_2048 hr j c
  show select (Gen.k0_pay3 (F := Ideal) x3) (Gen.k0_pay2 (F := Ideal) x0 x1 x2) (broadcast S512x2048 (FloatOps.ofBits .f32 0x00000000#32)) (hr.lift (ix1 j) c) = _
  rw [e]
  show Scalar.select (Gen.k0_pay3 (F := Ideal) x3 (ix2 j c)) (Gen.k0_pay2 (F := Ideal) x0 x1 x2 (ix2 j c)) (Ideal.ofBits .f32 0x00000000#32) = _
  rw [pay3_at, pay2_at]

theorem pay5_at (x0 : FVec Ideal S512x512 .f32) (x1 : FVec Ideal S512x2048 .bf16) (x2 : FVec Ideal S1x2048 .f32) (x3 : IVec S512x1 32) (j : Fin 512) :
    Gen.k0_pay5 (F := Ideal) x0 x1 x2 x3 (ix2 j (0 : Fin 1))
      = clampSqrt (∑ c : Fin 2048, Scalar.select (isLabel (x3 (ix2 j (0 : Fin 1))) c)
            (kerSq (fun d : Fin 512 => x0 (ix2 j d)) (fun (d : Fin 512) (c : Fin 2048) => x1 (ix2 d c)) (fun c : Fin 2048 => x2 (ix2 (0 : Fin 1) c)) c)
            (Ideal.ofBits .f32 0x00000000#32)) := by
  unfold Gen.k0_pay5
  exact pay5_gen x0 x1 x2 x3 _ _ _ _ j

/-- The stored value at lane j of the [1,1,512] block: the margin plus the label's distance column at row j, less the
    square root of the clamped minimum column at row j. -/
theorem pay1_at (v37 v40 : FVec Ideal S512x1 .f32) (j : Fin 512) :
    Gen.k0_pay1 (F := Ideal) v37 v40 (ix3 (0 : Fin 1) (0 : Fin 1) j)
      = (Ideal.ofBits .f32 0x3F800000#32 + v40 (ix2 j (0 : Fin 1))) - clampSqrt (v37 (ix2 j (0 : Fin 1))) := by
  unfold Gen.k0_pay1
  dsimp only
  refine (shapeCast_apply _ _ (ix3 (0 : Fin 1) (0 : Fin 1) j) (ix2 (0 : Fin 1) j) ?_).trans ?_
  · rw [Shape.rowMajor_val_two, Shape.rowMajor_val_three]
    show (0 : Nat) * 512 + (j : Nat) = ((0 : Nat) * 1 + 0) * 512 + (j : Nat)
    omega
  refine (transpose_apply _ _ _ (ix2 (0 : Fin 1) j) (ix2 j (0 : Fin 1)) fun b => ?_).trans ?_
  · match b with
    | ⟨0, _⟩ => rfl
    | ⟨1, _⟩ => rfl
  rfl

theorem zeros2 : (![0, 0] : Fin 2 → Nat) = fun _ => 0 := funext fun a => by fin_cases a <;> rfl
theorem zeros3 : (![0, 0, 0] : Fin 3 → Nat) = fun _ => 0 := funext fun a => by fin_cases a <;> rfl

/-- What the body leaves in the output block, at lane j: the kernel's loss of row j of the first block against the
    second block (the class rows transposed), the third (their squared norms) and row j's label word in the fourth. -/
theorem out_row (x0 : Vec Ideal S512x512 .f32) (x1 : Vec Ideal S512x2048 .bf16) (x2 : Vec Ideal S1x2048 .f32) (x3 : Vec Ideal S512x1 .i32) (j : Fin 512) :
    Gen.out0_4 (F := Ideal) x0 x1 x2 x3 (ix3 (0 : Fin 1) (0 : Fin 1) j)
      = kerRow (fun d : Fin 512 => x0 (ix2 j d)) (fun (d : Fin 512) (c : Fin 2048) => x1 (ix2 d c))
          (fun c : Fin 2048 => x2 (ix2 (0 : Fin 1) c)) (x3 (ix2 j (0 : Fin 1))) := by
  unfold Gen.out0_4
  rw [View.canon_unit_zero zeros3]
  simp only [View.ld_unit_zero (S := S512x512) zeros2, View.ld_unit_zero (S := S512x2048) zeros2,
    View.ld_unit_zero (S := S1x2048) zeros2, View.ld_unit_zero (S := S512x1) zeros2]
  refine (pay1_at _ _ j).trans ?_
  rw [pay4_at, pay5_at]
  rfl

end Cert.KernelIdeal.RowValue
end
-- ==== Proof.BlockSum.lean ====
/-
  Two ways to add up 16384 values agree. Laid out as a [32, 1, 512] array whose entry (i, 0, l) is value
  512·i + l, the sum over all three axes is the sum over the 16384 values: (i, l) ↦ 512·i + l is a bijection
  from [0, 32) × [0, 512) onto [0, 16384), with inverse n ↦ (n / 512, n % 512), and the middle axis has one
  coordinate. A rank-1 array's sum over its index set is likewise the sum over its coordinate.
-/
import Idealize.ShloMosaic.Lib.ValueIdx
import Idealize.ShloMosaic.Lib.ValueIdxRank1
import Mathlib.Algebra.BigOperators.Group.Finset.Basic
import Mathlib.Logic.Equiv.Defs

open scoped BigOperators

namespace Cert.DistLoss

open Idealize.ShloMosaic Idealize.ShloMosaic.ValueIdx

namespace BlockSum

/-- The three coordinates of an index of the [32, 1, 512] array are below 32, 1 and 512. -/
theorem blk_lt0 (i : (⟨3, ![32, 1, 512]⟩ : Shape).Idx) : (i 0).val < 32 := (i 0).isLt
theorem blk_lt1 (i : (⟨3, ![32, 1, 512]⟩ : Shape).Idx) : (i 1).val < 1 := (i 1).isLt
theorem blk_lt2 (i : (⟨3, ![32, 1, 512]⟩ : Shape).Idx) : (i 2).val < 512 := (i 2).isLt

/-- The index set of the [32, 1, 512] array is [0, 16384): (i, 0, l) ↦ 512·i + l, with inverse
    n ↦ (n / 512, 0, n % 512). -/
def blockEquiv : (⟨3, ![32, 1, 512]⟩ : Shape).Idx ≃ Fin 16384 where
  toFun i := ⟨512 * (i 0).val + (i 2).val, by have := blk_lt0 i; have := blk_lt2 i; omega⟩
  invFun n := ix3 (⟨n.val / 512, by have := n.isLt; omega⟩ : Fin 32) (⟨0, Nat.one_pos⟩ : Fin 1)
    (⟨n.val % 512, Nat.mod_lt _ (by decide)⟩ : Fin 512)
  left_inv i := by
    have h0 := blk_lt0 i; have h1 := blk_lt1 i; have h2 := blk_lt2 i
    funext a
    refine Fin.ext ?_
    match a with
    | ⟨0, _⟩ => show (512 * (i 0).val + (i 2).val) / 512 = (i 0).val; omega
    | ⟨1, _⟩ => show 0 = (i 1).val; omega
    | ⟨2, _⟩ => show (512 * (i 0).val + (i 2).val) % 512 = (i 2).val; omega
  right_inv n := by
    refine Fin.ext ?_
    show 512 * (n.val / 512) + n.val % 512 = n.val
    exact Nat.div_add_mod n.val 512

end BlockSum

/-- The sum over the [32, 1, 512] array of the values laid out in it is the sum of the values. -/
theorem sum_blocks {M : Type*} [AddCommMonoid M] (f : Fin 16384 → M) :
    ∑ i : (⟨3, ![32, 1, 512]⟩ : Idealize.ShloMosaic.Shape).Idx, f ⟨512 * (i 0).val + (i 2).val, by have := (i 0).isLt; have := (i 2).isLt; simp at *; omega⟩
      = ∑ n : Fin 16384, f n :=
  Equiv.sum_comp BlockSum.blockEquiv f

/-- The sum over a rank-1 array's index set is the sum over its coordinate. -/
theorem sum_rank1 {M : Type*} [AddCommMonoid M] (g : (⟨1, ![16384]⟩ : Shape).Idx → M) :
    ∑ j : (⟨1, ![16384]⟩ : Shape).Idx, g j = ∑ n : Fin 16384, g (ix1 n) :=
  (Equiv.sum_comp (idxEquiv1 (n := 16384)).symm g).symm

end Cert.DistLoss
-- ==== Proof.KernelArray.lean ====
/-
  From the body's block to the kernel's result, at the extended reals.

  The launch has 32 grid points. Point t stages rows 512·t … 512·t + 511 of the input and of the label column, the whole
  of the transposed class rows and of their squared norms (which the host lines before the launch compute from the class
  array: a transpose, and a row sum of squares reshaped to one row), and writes block t of a [32, 1, 512] array back.
  By `out_row` lane l of that block is the kernel's loss of row 512·t + l, so the blocks tile the array with
  `lossArr`: entry (i, 0, l) is `rowLoss` of row 512·i + l. The host lines after the launch sum that array over all
  three axes and divide by 16384: the mean of the 16384 row losses (`run`).
-/
import proofs.«410166_j8942121910555_2_alg».proof.Proof.KernelRow
import proofs.«410166_j8942121910555_2_alg».proof.Proof.BlockSum
import proofs.«410166_j8942121910555_2_alg».proof.Proof.Gen.KernelIdeal.Frame
import Idealize.ShloMosaic.Lib.Pipeline.Value
import Idealize.ShloMosaic.Lib.StableHlo.Run
import Idealize.ShloMosaic.Lib.ValueIdx
import Idealize.ShloMosaic.PureOps.Ideal.Laws

noncomputable section
namespace Cert.KernelIdeal.ArrayValue
open Cert.KernelIdeal Cert.KernelIdeal.Gen Idealize.ShloMosaic Idealize.ShloMosaic.TcCoe Idealize.SL.Sem
open Idealize.ShloMosaic.ValueIdx Cert.DistLoss Cert.KernelIdeal.RowValue
open Idealize.ShloMosaic.Pipeline (Dat)

variable (m : (ℓ : Loc nD τ sig) → Buf (Elt Ideal) ℓ) (ρ : Dev nD → PrngReg)

/-- The three argument arrays as launched, at their literal types. -/
abbrev arr0 (c : Dev nD) : S16384x512.Idx → EReal := m ((c : Thread nD τ).loc main_arg0)
abbrev arr1 (c : Dev nD) : S2048x512.Idx → EReal := m ((c : Thread nD τ).loc main_arg1)
abbrev arr2 (c : Dev nD) : S16384.Idx → BitVec 32 := m ((c : Thread nD τ).loc main_arg2)

theorem V_v0 (c : Dev nD) : (V m c main_v0 : S16384x1.Idx → BitVec 32)
    = shapeCast S16384x1 (m ((c : Thread nD τ).loc main_arg2)) shapeCasts_S16384_S16384x1 := by
  show StableHlo.after hostOps0 (fun b => m (c, b)) (Proc.devRef .tc main_v0) = _
  after_results <;> rfl

theorem V_v5 (c : Dev nD) : (V m c main_v5 : S512x2048.Idx → EReal)
    = transpose S512x2048 [1, 0] (truncf .bf16 (m ((c : Thread nD τ).loc main_arg1) : FVec Ideal S2048x512 .f32) bitsLt_bf16_f32 : FVec Ideal S2048x512 .bf16) transposes_S2048x512_S512x2048_1_0 := by
  show StableHlo.after hostOps0 (fun b => m (c, b)) (Proc.devRef .tc main_v5) = _
  after_results <;> rfl

theorem V_v3 (c : Dev nD) : (V m c main_v3 : S1x2048.Idx → EReal)
    = shapeCast S1x2048 (Host.reduceAdd (F := Ideal) (mulf (m ((c : Thread nD τ).loc main_arg1) : FVec Ideal S2048x512 .f32) (m ((c : Thread nD τ).loc main_arg1))) (constant (F := Ideal) S_ .f32 0x00000000#32) reducesTo_S2048x512_S2048_d1 h_S_) shapeCasts_S2048_S1x2048 := by
  show StableHlo.after hostOps0 (fun b => m (c, b)) (Proc.devRef .tc main_v3) = _
  after_results <;> rfl

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The class rows transposed, as the region finds them: entry (d, c) is the class array's entry (c, d). -/
theorem V_v5_at (c : Dev nD) (d : Fin 512) (k : Fin 2048) :
    (V m c main_v5 : S512x2048.Idx → EReal) (ix2 d k) = arr1 m c (ix2 k d) := by
  rw [V_v5]
  refine (transpose_apply _ _ _ (ix2 d k) (ix2 k d) fun b => ?_).trans rfl
  match b with
  | ⟨0, _⟩ => rfl
  | ⟨1, _⟩ => rfl

/-- The class rows' squared norms, as the region finds them: entry (0, k) is the sum of squares of class row k. -/
theorem V_v3_at (c : Dev nD) (k : Fin 2048) :
    (V m c main_v3 : S1x2048.Idx → EReal) (ix2 (0 : Fin 1) k)
      = sumSq (fun d : Fin 512 => arr1 m c (ix2 k d)) := by
  rw [V_v3]
  refine (shapeCast_apply _ _ (ix2 (0 : Fin 1) k) (ix1 k) ?_).trans ?_
  · rw [Shape.rowMajor_val_one, Shape.rowMajor_val_two]
    show (k : Nat) = (0 : Nat) * 2048 + (k : Nat)
    omega
  simp only [Host.reduceAdd, Ideal.hostReduceAdd_def]
  rw [Ideal.hostReduceAdd_single reducesTo_S2048x512_S2048_d1 (by decide)]
  show Ideal.ofBits .f32 0x00000000#32 + _ = _
  rw [Ideal.ofBits_zero_f32, zero_add]
  unfold sumSq
  refine Finset.sum_congr rfl fun (d : Fin 512) _ => ?_
  exact congrArg (fun i => arr1 m c i * arr1 m c i)
    (funext fun a => Fin.ext (by match a with | ⟨0, _⟩ => rfl | ⟨1, _⟩ => rfl))

/-- The labels as a column, as the region finds them: entry (n, 0) is label n. -/
theorem V_v0_at (c : Dev nD) (n : Fin 16384) :
    (V m c main_v0 : S16384x1.Idx → BitVec 32) (ix2 n (0 : Fin 1)) = arr2 m c (ix1 n) := by
  rw [V_v0]
  refine shapeCast_apply _ _ (ix2 n (0 : Fin 1)) (ix1 n) ?_
  rw [Shape.rowMajor_val_one, Shape.rowMajor_val_two]
  show (n : Nat) = (n : Nat) * 1 + 0
  omega

/-- Row n's loss as the kernel computes it, over the three argument arrays: its wrapper hands the body the class rows
    transposed and their squared norms. -/
def rowLoss (a0 : S16384x512.Idx → EReal) (a1 : S2048x512.Idx → EReal) (a2 : S16384.Idx → BitVec 32) (n : Fin 16384) : EReal :=
  kerRow (fun d : Fin 512 => a0 (ix2 n d)) (fun (d : Fin 512) (k : Fin 2048) => a1 (ix2 k d))
    (fun k : Fin 2048 => sumSq (fun d : Fin 512 => a1 (ix2 k d))) (a2 (ix1 n))

/-- The output array [32, 1, 512]: entry (i, 0, l) is the loss of row 512·i + l. -/
def lossArr (a0 : S16384x512.Idx → EReal) (a1 : S2048x512.Idx → EReal) (a2 : S16384.Idx → BitVec 32) : S32x1x512.Idx → EReal := fun i =>
  rowLoss a0 a1 a2 ⟨512 * (i 0).val + (i 2).val, by have := (i 0).isLt; have := (i 2).isLt; simp at *; omega⟩

/-- The stored block at ANY of its indices (its first two coordinates are 0): lane `y 2`. -/
theorem out_at (x0 : Vec Ideal S512x512 .f32) (x1 : Vec Ideal S512x2048 .bf16) (x2 : Vec Ideal S1x2048 .f32) (x3 : Vec Ideal S512x1 .i32) (y : S1x1x512.Idx) :
    out0_4 (F := Ideal) x0 x1 x2 x3 y
      = kerRow (fun d : Fin 512 => x0 (ix2 (y 2) d)) (fun (d : Fin 512) (k : Fin 2048) => x1 (ix2 d k))
          (fun k : Fin 2048 => x2 (ix2 (0 : Fin 1) k)) (x3 (ix2 (y 2) (0 : Fin 1))) := by
  have hy : y = ix3 (0 : Fin 1) (0 : Fin 1) (y 2) := by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
  exact (congrArg (out0_4 (F := Ideal) x0 x1 x2 x3) hy).trans (out_row x0 x1 x2 x3 (y 2))

/-- WHAT POINT t WRITES BACK is block t of the loss array of the argument arrays. -/
theorem flushed_eq (c : Dev nD) (t : Fin cfg0.N) :
    (dats m 0 c).flushed 4 t = ((cfg0.win 4).blk t).view.read (Elt Ideal) (lossArr (arr0 m c) (arr1 m c) (arr2 m c)) := by
  show (cfg0.win 4).cut (grid0.coords t) ((dats m 0 c).after 4 t) = _
  rw [after0_4]
  obtain ⟨e00, e01, e10, e11, e20, e21, e30, e31, e40, e41, e42⟩ := idx_facts t
  have htN : t.val < 32 := lt_of_lt_of_eq t.isLt N_0
  funext y
  have hy0 : (y 0).val < 1 := (y 0).isLt
  have hy2 : (y 2).val < 512 := (y 2).isLt
  show out0_4 (iblk m c 0 t) (iblk m c 1 t) (iblk m c 2 t) (iblk m c 3 t) y
      = lossArr (arr0 m c) (arr1 m c) (arr2 m c) (((cfg0.win 4).blk t).view.emb y)
  refine (out_at _ _ _ _ y).trans ?_
  -- the array index under the block's index y is row 512·t + y 2
  have hn : lossArr (arr0 m c) (arr1 m c) (arr2 m c) (((cfg0.win 4).blk t).view.emb y)
      = rowLoss (arr0 m c) (arr1 m c) (arr2 m c) ⟨512 * t.val + (y 2).val, by omega⟩ := by
    unfold lossArr
    refine congrArg (rowLoss (arr0 m c) (arr1 m c) (arr2 m c)) (Fin.ext ?_)
    show 512 * (win0_4.index t (0 : Fin 3) * 1 + 1 * (y 0).val) + (win0_4.index t (2 : Fin 3) * 512 + 1 * (y 2).val) = 512 * t.val + (y 2).val
    omega
  rw [hn]
  unfold rowLoss
  have h0 : (fun d : Fin 512 => iblk m c 0 t (ix2 (y 2) d)) = fun d : Fin 512 => arr0 m c (ix2 (⟨512 * t.val + (y 2).val, by omega⟩ : Fin 16384) d) := by
    funext d
    show V m c main_arg0 (((cfg0.win 0).blk t).view.emb (ix2 (y 2) d)) = _
    rw [V_main_arg0]
    refine congrArg (arr0 m c) (funext fun a => Fin.ext ?_)
    match a with
    | ⟨0, _⟩ => show win0_0.index t (0 : Fin 2) * 512 + 1 * (y 2).val = 512 * t.val + (y 2).val; omega
    | ⟨1, _⟩ => show win0_0.index t (1 : Fin 2) * 512 + 1 * d.val = d.val; omega
  have h1 : (fun (d : Fin 512) (k : Fin 2048) => iblk m c 1 t (ix2 d k)) = fun (d : Fin 512) (k : Fin 2048) => arr1 m c (ix2 k d) := by
    funext d k
    show V m c main_v5 (((cfg0.win 1).blk t).view.emb (ix2 d k)) = _
    have e : ((cfg0.win 1).blk t).view.emb (ix2 d k) = ix2 d k := funext fun a => Fin.ext (by
      match a with
      | ⟨0, _⟩ => show win0_1.index t (0 : Fin 2) * 512 + 1 * d.val = d.val; omega
      | ⟨1, _⟩ => show win0_1.index t (1 : Fin 2) * 2048 + 1 * k.val = k.val; omega)
    rw [e]
    exact V_v5_at m c d k
  have h2 : (fun k : Fin 2048 => iblk m c 2 t (ix2 (0 : Fin 1) k)) = fun k : Fin 2048 => sumSq (fun d : Fin 512 => arr1 m c (ix2 k d)) := by
    funext k
    show V m c main_v3 (((cfg0.win 2).blk t).view.emb (ix2 (0 : Fin 1) k)) = _
    have e : ((cfg0.win 2).blk t).view.emb (ix2 (0 : Fin 1) k) = ix2 (0 : Fin 1) k := funext fun a => Fin.ext (by
      match a with
      | ⟨0, _⟩ => show win0_2.index t (0 : Fin 2) * 1 + 1 * 0 = 0; omega
      | ⟨1, _⟩ => show win0_2.index t (1 : Fin 2) * 2048 + 1 * k.val = k.val; omega)
    rw [e]
    exact V_v3_at m c k
  have h3 : iblk m c 3 t (ix2 (y 2) (0 : Fin 1)) = arr2 m c (ix1 (⟨512 * t.val + (y 2).val, by omega⟩ : Fin 16384)) := by
    show V m c main_v0 (((cfg0.win 3).blk t).view.emb (ix2 (y 2) (0 : Fin 1))) = _
    have e : ((cfg0.win 3).blk t).view.emb (ix2 (y 2) (0 : Fin 1)) = ix2 (⟨512 * t.val + (y 2).val, by omega⟩ : Fin 16384) (0 : Fin 1) := funext fun a => Fin.ext (by
      match a with
      | ⟨0, _⟩ => show win0_3.index t (0 : Fin 2) * 512 + 1 * (y 2).val = 512 * t.val + (y 2).val; omega
      | ⟨1, _⟩ => show win0_3.index t (1 : Fin 2) * 1 + 1 * 0 = 0; omega)
    rw [e]
    exact V_v0_at m c _
  rw [h0, h1, h2, h3]

/-- An index of the loss array is in point t's block iff each coordinate is in the block's range on its axis. -/
theorem mem_blk (t : Fin cfg0.N) (i : S32x1x512.Idx) :
    i ∈ ((cfg0.win 4).blk t).view.set ↔ ∀ a : Fin 3, win0_4.index t a * S1x1x512.size a ≤ (i a).val ∧ (i a).val < win0_4.index t a * S1x1x512.size a + S1x1x512.size a := by
  show i ∈ ((View.whole main_v6).slice (win0_4.rect t)).set ↔ _
  rw [View.set_slice_whole, Rect.mem_set_unit]
  exact Iff.rfl

/-- Every index (i, 0, l) of the loss array lies in the block of the point i. -/
theorem cover (i : S32x1x512.Idx) : ∃ t : Fin cfg0.N, (cfg0.win 4).flush t = true ∧ i ∈ ((cfg0.win 4).blk t).view.set := by
  have hi0 : (i 0).val < 32 := (i 0).isLt
  have hi1 : (i 1).val < 1 := (i 1).isLt
  have hi2 : (i 2).val < 512 := (i 2).isLt
  have ht : (i 0).val < cfg0.N := lt_of_lt_of_eq hi0 N_0.symm
  obtain ⟨-, -, -, -, -, -, -, -, e40, e41, e42⟩ := idx_facts ⟨(i 0).val, ht⟩
  have e40' : win0_4.index ⟨(i 0).val, ht⟩ (0 : Fin 3) = (i 0).val := e40
  refine ⟨⟨(i 0).val, ht⟩, flush0_4 _, (mem_blk _ i).mpr fun a => ?_⟩
  match a with
  | ⟨0, _⟩ =>
    show win0_4.index ⟨(i 0).val, ht⟩ (0 : Fin 3) * 1 ≤ (i 0).val ∧ (i 0).val < win0_4.index ⟨(i 0).val, ht⟩ (0 : Fin 3) * 1 + 1
    omega
  | ⟨1, _⟩ =>
    show win0_4.index ⟨(i 0).val, ht⟩ (1 : Fin 3) * 1 ≤ (i 1).val ∧ (i 1).val < win0_4.index ⟨(i 0).val, ht⟩ (1 : Fin 3) * 1 + 1
    omega
  | ⟨2, _⟩ =>
    show win0_4.index ⟨(i 0).val, ht⟩ (2 : Fin 3) * 512 ≤ (i 2).val ∧ (i 2).val < win0_4.index ⟨(i 0).val, ht⟩ (2 : Fin 3) * 512 + 512
    omega

/-- THE ARRAY after the run: the loss array of the argument arrays. -/
theorem final_arr (c : Dev nD) : (dats m 0 c).arrAt 4 cfg0.N = lossArr (arr0 m c) (arr1 m c) (arr2 m c) :=
  (dats m 0 c).arrAt_eq_of_cover 4 (lossArr (arr0 m c) (arr1 m c) (arr2 m c)) (fun t _ => flushed_eq m c t) cover

/-- The kernel's result: the host lines after the region sum the loss array over its three axes and divide by 16384. -/
theorem tail_v8 (c : Dev nD) :
    (Pipeline.afterTail₀ cfgs (dats m) 0 (V0 m) [hostOps1] c main_v8 : S_.Idx → EReal)
      = fun _ => meanOf (∑ n : Fin 16384, rowLoss (arr0 m c) (arr1 m c) (arr2 m c) n) := by
  unfold Pipeline.afterTail₀
  show StableHlo.after hostOps1 _ (Proc.devRef .tc main_v8) = _
  after_results
  have hW : (Pipeline.withArrays (cfgs 0).spec c (V0 m c) (fun w => (dats m 0 c).arrAt w (cfgs 0).N) (Proc.devRef .tc main_v6) : S32x1x512.Idx → EReal)
      = lossArr (arr0 m c) (arr1 m c) (arr2 m c) :=
    (Pipeline.withArrays_arr spec0 launch0.win.arr_inj c _ _ 4).trans (final_arr m c)
  rw [hW]
  funext i
  show Ideal.div (Host.reduceAdd (F := Ideal) (lossArr (arr0 m c) (arr1 m c) (arr2 m c)) (constant (F := Ideal) S_ .f32 0x00000000#32) reducesTo_S32x1x512_S_d0_1_2 h_S_ i)
      (Ideal.ofBits .f32 0x46800000#32) = _
  unfold meanOf
  refine congrArg (fun s => Ideal.div s (Ideal.ofBits .f32 0x46800000#32)) ?_
  simp only [Host.reduceAdd, Ideal.hostReduceAdd_def]
  rw [Ideal.hostReduceAdd_total reducesTo_S32x1x512_S_d0_1_2 (fun b => b.elim0)]
  show Ideal.ofBits .f32 0x00000000#32 + _ = _
  rw [Ideal.ofBits_zero_f32, zero_add]
  exact sum_blocks (rowLoss (arr0 m c) (arr1 m c) (arr2 m c))

/-- THE KERNEL'S RUN at the extended reals: every weakly fair execution ends with the result at the mean of the rows'
    losses and the three arguments unchanged. -/
theorem run : θ_run defs (onTc (τ := τ) (main (F := Ideal))) ⟨m, fun _ => 0, ρ⟩ fun r => ∀ c : Dev nD,
      r.2.mem ((c.tc : Thread nD τ).loc main_v8) = (fun _ => meanOf (∑ n : Fin 16384, rowLoss (arr0 m c) (arr1 m c) (arr2 m c) n))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v8 (Pipeline.mem_restRefs_of main_v8 (by decide) (by decide))).trans (tail_v8 m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.ArrayValue
end
-- ==== Proof.lean ====
/-
  The certificate of the distance-loss kernel against its jnp reference, over the extended reals.

  Both programs return the mean, over the 16384 rows x of the input, of the margin loss
      1 + √max(D(L), 0) − min over the classes c ≠ L of √max(D(c), 0),
  with D(c) the squared distance of the row's unit vector to class row c and L the row's label. The claim is stated
  for finite float inputs and labels in [0, 2048): outside that range the reference's own gather indexes out of range
  (it reads a clamped or wrapped column) while the kernel's one-hot mask selects nothing.

  The kernel's side (KernelRow, KernelArray): the body's stored lane is `kerRow` of its row; the 32 blocks tile the
  [32, 1, 512] array of row losses; the host lines after the launch take its mean. The reference's side (RefRows): its
  result, stage by stage, is the mean of `refRow` over the rows. The two row losses are one function (RowMath): on a
  finite row the reciprocal of the norm multiplies as the norm divides and pulls out of the sum of squares; the masked sum
  over a one-hot mask is the entry at the label; and √max(·, 0) is monotone and fixes +∞, so it commutes with the minimum.
  The two means then add the same 16384 values, laid out [32, 1, 512] and [16384] (BlockSum). The precondition's two facts
  — the input's entries are reals, the labels are below 2048 — are read off its printed form (PreFacts).
-/
import proofs.«410166_j8942121910555_2_alg».proof.Defs
import proofs.«410166_j8942121910555_2_alg».proof.Proof.Gen.Kernel
import proofs.«410166_j8942121910555_2_alg».proof.Proof.Gen.Kernel.Skeleton
import proofs.«410166_j8942121910555_2_alg».proof.Proof.Gen.Kernel.Launch
import proofs.«410166_j8942121910555_2_alg».proof.Proof.Gen.Kernel.Points
import proofs.«410166_j8942121910555_2_alg».proof.Proof.Gen.Kernel.Frame
import proofs.«410166_j8942121910555_2_alg».proof.Proof.Gen.KernelIdeal
import proofs.«410166_j8942121910555_2_alg».proof.Proof.Gen.KernelIdeal.Skeleton
import proofs.«410166_j8942121910555_2_alg».proof.Proof.Gen.KernelIdeal.Launch
import proofs.«410166_j8942121910555_2_alg».proof.Proof.Gen.KernelIdeal.Points
import proofs.«410166_j8942121910555_2_alg».proof.Proof.Gen.KernelIdeal.Frame
import proofs.«410166_j8942121910555_2_alg».proof.Proof.Gen.ReferenceIdeal
import proofs.«410166_j8942121910555_2_alg».proof.Proof.Gen.Pre_finite_inputs
import proofs.«410166_j8942121910555_2_alg».proof.Proof.Gen.ReferenceIdeal.Run
import proofs.«410166_j8942121910555_2_alg».proof.Proof.Gen.ReferenceIdeal.Read
import proofs.«410166_j8942121910555_2_alg».proof.Proof.Spec
import proofs.«410166_j8942121910555_2_alg».proof.Proof.RowMath
import proofs.«410166_j8942121910555_2_alg».proof.Proof.RefRows
import proofs.«410166_j8942121910555_2_alg».proof.Proof.PreFacts
import proofs.«410166_j8942121910555_2_alg».proof.Proof.KernelArray
import Idealize.ShloMosaic.Adequacy
import Idealize.ShloMosaic.Init

noncomputable section

namespace Cert.Proof

open Idealize.ShloMosaic Idealize.SL.Sem Idealize.ShloMosaic.ValueIdx Cert.DistLoss

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel. -/
theorem preserves : Cert.preserves_Kernel_KernelIdeal := trivial

/-- From memories that agree on the arguments, both programs end at the mean of the rows' losses: the kernel's as
    `kerRow`, the reference's as `refRow`, equal row by row on finite rows with labels in range. -/
theorem algebraic : Cert.algebraic_KernelIdeal_ReferenceIdeal := by
  intro m ρ m' ρ' hpre hagree
  refine ⟨fun c => fun _ => meanOf (∑ n : Fin 16384, Cert.KernelIdeal.ArrayValue.rowLoss
      (Cert.KernelIdeal.ArrayValue.arr0 m c) (Cert.KernelIdeal.ArrayValue.arr1 m c) (Cert.KernelIdeal.ArrayValue.arr2 m c) n),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, (hagree c).1, (hagree c).2.1, (hagree c).2.2]
  obtain ⟨hfin, hlab⟩ := Cert.DistLoss.PreFacts.facts_of_pre _ _ _ (hpre c)
  rw [Cert.ReferenceIdeal.RefValue.ref_value _ _ _ hlab]
  funext _
  refine congrArg meanOf (Finset.sum_congr rfl fun n _ => ?_)
  exact (kerRow_eq_refRow _ _ _ (fun d => hfin _) (hlab n)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
